-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg9 : FVec F S64 .f32) (main_arg10 : FVec F S64x64 .f32) (main_arg11 : FVec F S64x16 .f32) (main_arg12 : FVec F S16 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x16 .f32 := Host.absf main_arg11
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg1 main_v48 main_v49 main_v50

def fn_part1 {F : FTy → Type} [FloatOps F] (main_arg1 : IVec S2x1600000 32) (main_arg6 : FVec F S64 .f32) (main_arg7 : FVec F S64x64 .f32) (main_arg8 : FVec F S64x64 .f32) (main_arg9 : FVec F S64 .f32) (main_arg10 : FVec F S64x64 .f32) (main_arg11 : FVec F S64x16 .f32) (main_arg12 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x11 .f32) (main_arg1 : IVec S2x1600000 32) (main_arg2 : IVec S100000 32) (main_arg3 : FVec F S11x64 .f32) (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x16 .f32) (main_arg12 : FVec F S16 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x64 .f32 := Host.absf main_arg3
  let main_cst_0 : FVec F S_ .f32 := constant S_ .f32 0x7F800000#32
  let main_v5 : FVec F S11x64 .f32 := broadcastInDim S11x64 ![] bcast_S_S11x64 main_cst_0
  let main_v6 : IVec S11x64 1 := cmpf .olt main_v4 main_v5
  let main_c_1 : IVec S_ 1 := constantI S_ 1 1#1
  let main_v7 : IVec S_ 1 := (fun x v => Host.reduce IntOp.andi x v reducesTo_S11x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_v13 main_v16
-- ==== Kernel.lean ====
abbrev S100000x11 : Shape := ⟨2, ![100000, 11]⟩
abbrev S2x1600000 : Shape := ⟨2, ![2, 1600000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x11 : Shape := ⟨2, ![10000, 11]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x16 : Shape := ⟨2, ![1, 16]⟩
abbrev S100000x16 : Shape := ⟨2, ![100000, 16]⟩
abbrev S10000x16 : Shape := ⟨2, ![10000, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩
abbrev S512x8 : Shape := ⟨2, ![512, 8]⟩

abbrev nBuf : Space → Nat
  | .hbm => 116
  | .vmem => 26
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S100000, .i32⟩
  | .hbm, ⟨3, _⟩ => ⟨S11x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x16, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1, .i32⟩
  | .hbm, ⟨28, _⟩ => ⟨S_, .i32⟩
  | .hbm, ⟨29, _⟩ => ⟨S1600000x1, .i32⟩
  | .hbm, ⟨30, _⟩ => ⟨S1600000x1, .i1⟩
  | .hbm, ⟨31, _⟩ => ⟨S1x1, .i32⟩
  | .hbm, ⟨32, _⟩ => ⟨S1600000x1, .i32⟩
  | .hbm, ⟨33, _⟩ => ⟨S1600000x1, .i1⟩
  | .hbm, ⟨34, _⟩ => ⟨S1600000x1, .i1⟩
  | .hbm, ⟨35, _⟩ => ⟨S_, .i1⟩
  | .hbm, ⟨36, _⟩ => ⟨S1600000, .i1⟩
  | .hbm, ⟨37, _⟩ => ⟨S1600000x64, .f32⟩
  | .hbm, ⟨38, _⟩ => ⟨S1600000x64, .i1⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1, .i32⟩
  | .hbm, ⟨57, _⟩ => ⟨S_, .i32⟩
  | .hbm, ⟨58, _⟩ => ⟨S1600000x1, .i32⟩
  | .hbm, ⟨59, _⟩ => ⟨S1600000x1, .i1⟩
  | .hbm, ⟨60, _⟩ => ⟨S1x1, .i32⟩
  | .hbm, ⟨61, _⟩ => ⟨S1600000x1, .i32⟩
  | .hbm, ⟨62, _⟩ => ⟨S1600000x1, .i1⟩
  | .hbm, ⟨63, _⟩ => ⟨S1600000x1, .i1⟩
  | .hbm, ⟨64, _⟩ => ⟨S_, .i1⟩
  | .hbm, ⟨65, _⟩ => ⟨S1600000, .i1⟩
  | .hbm, ⟨66, _⟩ => ⟨S1600000x64, .f32⟩
  | .hbm, ⟨67, _⟩ => ⟨S1600000x64, .i1⟩
  | .hbm, ⟨68, _⟩ => ⟨S_, .f32⟩
  | .hbm, ⟨69, _⟩ => ⟨S1600000x64, .f32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x64, .f32⟩
  | .hbm, ⟨76, _⟩ => ⟨S1x16, .f32⟩
  | .hbm, ⟨77, _⟩ => ⟨S100000x16, .f32⟩
  | .hbm, ⟨78, _⟩ => ⟨S_, .f32⟩
  | .hbm, ⟨79, _⟩ => ⟨S512x16, .f32⟩
  | .hbm, ⟨80, _⟩ => ⟨S100000x1, .i32⟩
  | .hbm, ⟨81, _⟩ => ⟨S512x16, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S512, .f32⟩
  | .hbm, ⟨86, _⟩ => ⟨S100000x1, .i32⟩
  | .hbm, ⟨87, _⟩ => ⟨S512, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S512x1, .f32⟩
  | .hbm, ⟨92, _⟩ => ⟨S512x16, .f32⟩
  | .hbm, ⟨93, _⟩ => ⟨S512x16, .f32⟩
  | .hbm, ⟨94, _⟩ => ⟨S512x8, .f32⟩
  | .hbm, ⟨95, _⟩ => ⟨S512x8, .f32⟩
  | .hbm, ⟨96, _⟩ => ⟨S_, .f32⟩
  | .hbm, ⟨97, _⟩ => ⟨S512x8, .f32⟩
  | .hbm, ⟨98, _⟩ => ⟨S512x8, .f32⟩
  | .hbm, ⟨99, _⟩ => ⟨S_, .f32⟩
  | .hbm, ⟨100, _⟩ => ⟨S512x8, .f32⟩
  | .hbm, ⟨101, _⟩ => ⟨S512x8, .f32⟩
  | .hbm, ⟨102, _⟩ => ⟨S512x8, .f32⟩
  | .hbm, ⟨103, _⟩ => ⟨S512x8, .f32⟩
  | .hbm, ⟨104, _⟩ => ⟨S512x8, .i1⟩
  | .hbm, ⟨105, _⟩ => ⟨S512x8, .f32⟩
  | .hbm, ⟨106, _⟩ => ⟨S512x8, .f32⟩
  | .hbm, ⟨107, _⟩ => ⟨S512x8, .f32⟩
  | .hbm, ⟨108, _⟩ => ⟨S512x8, .f32⟩
  | .hbm, ⟨109, _⟩ => ⟨S512x8, .f32⟩
  | .hbm, ⟨110, _⟩ => ⟨S512x8, .f32⟩
  | .hbm, ⟨111, _⟩ => ⟨S512x8, .f32⟩
  | .hbm, ⟨112, _⟩ => ⟨S512x8, .f32⟩
  | .hbm, ⟨113, _⟩ => ⟨S_, .f32⟩
  | .hbm, ⟨114, _⟩ => ⟨S512x8, .f32⟩
  | .hbm, ⟨115, _⟩ => ⟨S512x8, .f32⟩
  | .local _ .vmem, ⟨0, _⟩ => ⟨S10000x11, .f32⟩
  | .local _ .vmem, ⟨1, _⟩ => ⟨S10000x11, .f32⟩
  | .local _ .vmem, ⟨2, _⟩ => ⟨S11x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S64x16, .f32⟩
  | .local _ .vmem, ⟨23, _⟩ => ⟨S1x16, .f32⟩
  | .local _ .vmem, ⟨24, _⟩ => ⟨S10000x16, .f32⟩
  | .local _ .vmem, ⟨25, _⟩ => ⟨S10000x16, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v12 : Ref sig .tc := ⟨.hbm, 70, rfl⟩
abbrev main_cst_0 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_1 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_2 : Ref sig .tc := ⟨.hbm, 82, rfl⟩
abbrev main_v22 : Ref sig .tc := ⟨.hbm, 83, rfl⟩
abbrev main_cst_3 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst_4 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_5 : Ref sig .tc := ⟨.hbm, 96, rfl⟩
abbrev main_v33 : Ref sig .tc := ⟨.hbm, 97, rfl⟩
abbrev main_v34 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_v35 : Ref sig .tc := ⟨.hbm, 112, rfl⟩
abbrev main_cst_6 : Ref sig .tc := ⟨.hbm, 113, rfl⟩
abbrev main_v36 : Ref sig .tc := ⟨.hbm, 114, rfl⟩
abbrev main_v37 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x11_S10000x11_0_0 : ∀ a, (![0, 0] : Fin 2 → Nat) a + S10000x11.size a ≤ S10000x11.size a
  h_S10000x11 : 0 < S10000x11.numel
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S512x16 : S_.BroadcastsInDim S512x16 (![] : Fin 0 → Fin S512x16.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  slices_S512x16_S512x8_0_0 : S512x16.Slices ![0, 0] S512x8
  slices_S512x16_S512x8_0_8 : S512x16.Slices ![0, 8] S512x8
  bcast_S_S512x8 : S_.BroadcastsInDim S512x8 (![] : Fin 0 → Fin S512x8.rank)
  dot_S10000x11_S11x64_S10000x64_1_0_0_1_n_n_wf : DotDims.WF S10000x11 S11x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S100000x11.size a
  hwx0_0 : ∀ i : grid0.Coords, EltTy.bits .f32 = 32 ∨ (Rect.block (s := S100000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x64.size a ≤ S11x64.size a
  hwx0_1 : ∀ i : grid0.Coords, EltTy.bits .f32 = 32 ∨ (Rect.block (s := S11x64) S11x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x16.size a ≤ S100000x16.size a
  hwx2_7 : ∀ i : grid2.Coords, EltTy.bits .f32 = 32 ∨ (Rect.block (s := S100000x16) S10000x16.size (cc2_transform_7 i) (hinb2_7 i)).WholeWords (EltTy.packing .f32)

variable [Facts₀]

def dot_S10000x11_S11x64_S10000x64_1_0_0_1_n_n : DotDims S10000x11 S11x64 S10000x64 where
  lhsContracting := [1]
  rhsContracting := [0]
  lhsNonContracting := [0]
  rhsNonContracting := [1]
  lhsBatch := []
  rhsBatch := []
  wf := dot_S10000x11_S11x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S10000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S100000 : Shape := ⟨1, ![100000]⟩
abbrev S11x64 : Shape := ⟨2, ![11, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩
abbrev S512x8 : Shape := ⟨2, ![512, 8]⟩

abbrev nBuf : Space → Nat
  | .hbm => 104
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S100000, .i32⟩
  | .hbm, ⟨3, _⟩ => ⟨S11x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x16, .f32⟩
  | .hbm, ⟨12, _⟩ => ⟨S16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S512x16, .f32⟩
  | .hbm, ⟨68, _⟩ => ⟨S100000x1, .i32⟩
  | .hbm, ⟨69, _⟩ => ⟨S512x16, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S512, .f32⟩
  | .hbm, ⟨74, _⟩ => ⟨S100000x1, .i32⟩
  | .hbm, ⟨75, _⟩ => ⟨S512, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S512x1, .f32⟩
  | .hbm, ⟨80, _⟩ => ⟨S512x16, .f32⟩
  | .hbm, ⟨81, _⟩ => ⟨S512x16, .f32⟩
  | .hbm, ⟨82, _⟩ => ⟨S512x8, .f32⟩
  | .hbm, ⟨83, _⟩ => ⟨S512x8, .f32⟩
  | .hbm, ⟨84, _⟩ => ⟨S_, .f32⟩
  | .hbm, ⟨85, _⟩ => ⟨S512x8, .f32⟩
  | .hbm, ⟨86, _⟩ => ⟨S512x8, .f32⟩
  | .hbm, ⟨87, _⟩ => ⟨S_, .f32⟩
  | .hbm, ⟨88, _⟩ => ⟨S512x8, .f32⟩
  | .hbm, ⟨89, _⟩ => ⟨S512x8, .f32⟩
  | .hbm, ⟨90, _⟩ => ⟨S512x8, .f32⟩
  | .hbm, ⟨91, _⟩ => ⟨S512x8, .f32⟩
  | .hbm, ⟨92, _⟩ => ⟨S512x8, .i1⟩
  | .hbm, ⟨93, _⟩ => ⟨S512x8, .f32⟩
  | .hbm, ⟨94, _⟩ => ⟨S512x8, .f32⟩
  | .hbm, ⟨95, _⟩ => ⟨S512x8, .f32⟩
  | .hbm, ⟨96, _⟩ => ⟨S512x8, .f32⟩
  | .hbm, ⟨97, _⟩ => ⟨S512x8, .f32⟩
  | .hbm, ⟨98, _⟩ => ⟨S512x8, .f32⟩
  | .hbm, ⟨99, _⟩ => ⟨S512x8, .f32⟩
  | .hbm, ⟨100, _⟩ => ⟨S512x8, .f32⟩
  | .hbm, ⟨101, _⟩ => ⟨S_, .f32⟩
  | .hbm, ⟨102, _⟩ => ⟨S512x8, .f32⟩
  | .hbm, ⟨103, _⟩ => ⟨S512x8, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v63 : Ref sig .tc := ⟨.hbm, 100, rfl⟩
abbrev main_cst_9 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  slices_S512x16_S512x8_0_0 : S512x16.Slices ![0, 0] S512x8
  slices_S512x16_S512x8_0_8 : S512x16.Slices ![0, 8] S512x8
  bcast_S_S512x8 : S_.BroadcastsInDim S512x8 (![] : Fin 0 → Fin S512x8.rank)
  dot_S100000x11_S11x64_S100000x64_1_0_0_1_n_n_wf : DotDims.WF S100000x11 S11x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1

variable [Facts₀]

def dot_S100000x11_S11x64_S100000x64_1_0_0_1_n_n : DotDims S100000x11 S11x64 S100000x64 where
  lhsContracting := [1]
  rhsContracting := [0]
  lhsNonContracting := [0]
  rhsNonContracting := [1]
  lhsBatch := []
  rhsBatch := []
  wf := dot_S100000x11_S11x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.TakeMask.lean ====
import proofs.«429277_j17781164605718_2_alg».proof.Defs
import Idealize.ShloMosaic.Lib.ValueIdx
import Idealize.ShloMosaic.Lib.ReduceAll
import Idealize.ShloMosaic.Lib.StableHlo.Predicate
import Idealize.ShloMosaic.Lib.Pipeline.Value

/-! # The row gather's range test

The kernel's row gather wraps a negative source index once (src + 100000 where src < 0), tests the wrapped
index against 0 ≤ w ≤ 99999, gathers, and answers a fill value where the test fails. For an index already in
[0, 100000) the wrap is the identity and the test holds, so the selected value is the gathered row. -/

noncomputable section

namespace Cert.KernelIdeal.Take

open Cert.KernelIdeal Idealize.ShloMosaic Idealize.ShloMosaic.TcCoe Idealize.SL.Sem

variable [Cert.KernelIdeal.Facts]
open Cert.KernelIdeal.Facts₀ Cert.KernelIdeal.Facts

/-- The index column the gather reads: each source index, a negative one moved up by the number of rows. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The range test on an index column, 0 ≤ w ≤ 99999 per edge, spread over the gathered row's 64 lanes. -/
def inBounds (w : IVec S1600000x1 32) : IVec S1600000x64 1 :=
  broadcastInDim S1600000x64 ![0] bcast_S1600000_S1600000x64_0
    (Host.reduce IntOp.andi
      (andi (cmpi .sge w (broadcastInDim S1600000x1 ![] bcast_S_S1600000x1 (constantI S_ 32 0#32)))
        (cmpi .sle w (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The edge a position of the index column belongs to. -/
abbrev edgeOf (i : S1600000x1.Idx) : S1600000.Idx := fun a => match a with
  | ⟨0, _⟩ => ⟨(i 0).val, (i 0).isLt⟩

/-- The wrapped column at a position is the scalar wrap of that edge's source index. -/
theorem wrapped_apply (src : IVec S1600000 32) (i : S1600000x1.Idx) :
    wrapped src i = Scalar.select (IntOp.cmpi .slt (src (edgeOf i)) 0#32)
      (IntOp.addi (src (edgeOf i)) 100000#32) (src (edgeOf i)) := by
  unfold wrapped
  rw [broadcastInDim_apply _ bcast_S1600000_S1600000x1_0 _ i (edgeOf i) (fun a => match a with
    | ⟨0, _⟩ => by show (i 0).val = if (1600000 : Nat) = 1 then 0 else (i 0).val; rw [if_neg (by decide)])]
  rfl

/-- A source index in [0, 100000) is not negative, so the wrap leaves it alone. -/
theorem wrapped_of_range (src : IVec S1600000 32) (i : S1600000x1.Idx)
    (h : 0 ≤ (src (edgeOf i)).toInt ∧ (src (edgeOf i)).toInt < 100000) : wrapped src i = src (edgeOf i) := by
  rw [wrapped_apply]
  have hn : ¬ IntOp.cmpi .slt (src (edgeOf i)) 0#32 = 1#1 := by
    rw [IntOp.cmpi_slt]
    have h0 : (0#32 : BitVec 32).toInt = 0 := by decide
    omega
  rw [ValueIdx.eq_zero_of_ne_one hn, ValueIdx.select_zero]

/-- A left fold by and over one-bit words that are all 1, started at 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Every source index in [0, 100000): the wrapped column passes the range test on every lane. -/
theorem inBounds_wrapped (src : IVec S1600000 32)
    (hsrc : ∀ e : S1600000.Idx, 0 ≤ (src e).toInt ∧ (src e).toInt < 100000) :
    inBounds (wrapped src) = fun _ => 1#1 := by
  -- the two compares and their conjunction, at a position of the column
  have htest : ∀ i : S1600000x1.Idx,
      andi (cmpi .sge (wrapped src) (broadcastInDim S1600000x1 ![] bcast_S_S1600000x1 (constantI S_ 32 0#32)))
        (cmpi .sle (wrapped src) (broadcastInDim S1600000x1 ![0, 1] bcast_S1x1_S1600000x1_0_1
          (broadcastInDim S1x1 ![1] bcast_S1_S1x1_1 (constantI S1 32 99999#32)))) i = 1#1 := by
    intro i
    have hr := hsrc (edgeOf i)
    show IntOp.andi (IntOp.cmpi .sge (wrapped src i) 0#32) (IntOp.cmpi .sle (wrapped src i) 99999#32) = 1#1
    rw [wrapped_of_range src i hr, IntOp.andi_eq_one, IntOp.cmpi_sge, IntOp.cmpi_sle]
    have h0 : (0#32 : BitVec 32).toInt = 0 := by decide
    have h9 : (99999#32 : BitVec 32).toInt = 99999 := by decide
    omega
  funext j
  unfold inBounds
  simp only [broadcastInDim]
  rw [Host.reduce_eq_foldl]
  exact foldl_andi_one _ htest _

/-- So the select under the test keeps the gathered value everywhere. -/
theorem select_inBounds {α : Type} (src : IVec S1600000 32)
    (hsrc : ∀ e : S1600000.Idx, 0 ≤ (src e).toInt ∧ (src e).toInt < 100000)
    (g f : S1600000x64.Idx → α) :
    select (inBounds (wrapped src)) g f = g := by
  funext i
  rw [ValueIdx.select_apply, inBounds_wrapped src hsrc, ValueIdx.select_one]

/-- The precondition's last conjunct, read at an edge: row 0 of the edge list holds node numbers. -/
theorem src_in_range [hPre_finite_inputs : Cert.Pre_finite_inputs.Facts]
    (m : (ℓ : Loc nD τ sig) → Buf (Elt Ideal) ℓ) (hpre : Cert.Pre_KernelIdeal m) (c : Dev nD) (e : S1600000.Idx) :
    0 ≤ ((shapeCast S1600000 (extractStridedSlice S1x1600000 ![0, 0] (m ((c.tc : Thread nD τ).loc main_arg1))
        slices_S2x1600000_S1x1600000_0_0) shapeCasts_S1x1600000_S1600000 : IVec S1600000 32) e).toInt
    ∧ ((shapeCast S1600000 (extractStridedSlice S1x1600000 ![0, 0] (m ((c.tc : Thread nD τ).loc main_arg1))
        slices_S2x1600000_S1x1600000_0_0) shapeCasts_S1x1600000_S1600000 : IVec S1600000 32) e).toInt < 100000 := by
  -- the precondition at its one index is a conjunction whose last word is the and-reduce, over all edges, of the
  -- two compares of row 0 against 0 and 100000
  have h := congrFun (hpre c) ValueIdx.ix0
  simp only [Cert.Pre_finite_inputs.fn, Cert.Pre_finite_inputs.fn_part1, Cert.Pre_finite_inputs.fn_part2,
    Cert.Pre_finite_inputs.fn_part3] at h
  have hall := (IntOp.andi_eq_one.1 h).2
  -- the reduce into a scalar was 1, so the conjunction of the compares is 1 at every edge
  haveI : Subsingleton Cert.Pre_finite_inputs.S_.Idx := ⟨fun a b => funext fun d => d.elim0⟩
  have he := Host.reduce_andi_all _ _ _ _ _ hall e
  obtain ⟨hge, hlt⟩ := IntOp.andi_eq_one.1 he
  change IntOp.cmpi .sge _ 0#32 = 1#1 at hge
  change IntOp.cmpi .slt _ 100000#32 = 1#1 at hlt
  have h0 := IntOp.cmpi_sge.1 hge
  have h1 := IntOp.cmpi_slt.1 hlt
  rw [show (0#32 : BitVec 32).toInt = 0 from by decide] at h0
  rw [show (100000#32 : BitVec 32).toInt = 100000 from by decide] at h1
  exact ⟨h0, h1⟩

end Cert.KernelIdeal.Take

end
-- ==== Proof.Region0.lean ====
import proofs.«429277_j17781164605718_2_alg».proof.Proof.Gen.KernelIdeal.Frame
import proofs.«429277_j17781164605718_2_alg».proof.Proof.Gen.ReferenceIdeal.Read
import Idealize.ShloMosaic.Lib.Pipeline.Value
import Idealize.ShloMosaic.Lib.ValueIdx
import Idealize.ShloMosaic.PureOps.Ideal.Laws

/-! # The input projection, region by rows

The first kernel computes h0 = x · W0 + b0 over ten row tiles of 10000 rows. Over the extended reals a row tile
of the product is the same rows of the whole product: entry (r, q) is the sum over k of x(r, k) · W0(k, q), plus
b0(q), whichever tile r lies in. So after the ten write-backs the output array is the whole-array function the
reference computes in one step. No law of the extended reals beyond re-indexing a finite sum is used. -/

set_option maxRecDepth 16384

noncomputable section

namespace Cert.KernelIdeal.Proj0

open Cert.KernelIdeal Cert.KernelIdeal.Gen
open Idealize.ShloMosaic Idealize.ShloMosaic.TcCoe Idealize.SL.Sem

/-! ## The tile's product read at an entry -/

theorem lhs_tile_0 (j : S10000x64.Idx) (q : dot_S10000x11_S11x64_S10000x64_1_0_0_1_n_n.contr.Idx) :
    (dot_S10000x11_S11x64_S10000x64_1_0_0_1_n_n.lhsIdx j q 0).val = (j 0).val := by
  unfold DotDims.lhsIdx
  rw [dif_neg (show ¬(0 : Fin S10000x11.rank) ∈ dot_S10000x11_S11x64_S10000x64_1_0_0_1_n_n.lhsBatch by decide), dif_pos (show (0 : Fin S10000x11.rank) ∈ dot_S10000x11_S11x64_S10000x64_1_0_0_1_n_n.lhsNonContracting by decide)]
  rfl
theorem lhs_tile_1 (j : S10000x64.Idx) (q : dot_S10000x11_S11x64_S10000x64_1_0_0_1_n_n.contr.Idx) :
    (dot_S10000x11_S11x64_S10000x64_1_0_0_1_n_n.lhsIdx j q 1).val = (q ⟨0, by decide⟩).val :=
  dot_S10000x11_S11x64_S10000x64_1_0_0_1_n_n.lhsIdx_val_of_single rfl j q
theorem rhs_tile_0 (j : S10000x64.Idx) (q : dot_S10000x11_S11x64_S10000x64_1_0_0_1_n_n.contr.Idx) :
    (dot_S10000x11_S11x64_S10000x64_1_0_0_1_n_n.rhsIdx j q 0).val = (q ⟨0, by decide⟩).val :=
  dot_S10000x11_S11x64_S10000x64_1_0_0_1_n_n.rhsIdx_val_of_single rfl j q
theorem rhs_tile_1 (j : S10000x64.Idx) (q : dot_S10000x11_S11x64_S10000x64_1_0_0_1_n_n.contr.Idx) :
    (dot_S10000x11_S11x64_S10000x64_1_0_0_1_n_n.rhsIdx j q 1).val = (j 1).val := by
  unfold DotDims.rhsIdx
  rw [dif_neg (show ¬(1 : Fin S11x64.rank) ∈ dot_S10000x11_S11x64_S10000x64_1_0_0_1_n_n.rhsBatch by decide), dif_pos (show (1 : Fin S11x64.rank) ∈ dot_S10000x11_S11x64_S10000x64_1_0_0_1_n_n.rhsNonContracting by decide)]
  rfl

/-- Entry (row of j, k) of the tile of x. -/
abbrev rowOf (j : S10000x64.Idx) (k : Fin 11) : S10000x11.Idx := fun a => match a with
  | ⟨0, _⟩ => ⟨(j 0).val, (j 0).isLt⟩
  | ⟨1, _⟩ => ⟨k.val, k.isLt⟩
/-- Entry (k, column of j) of the weights. -/
abbrev colOf (j : S10000x64.Idx) (k : Fin 11) : S11x64.Idx := fun a => match a with
  | ⟨0, _⟩ => ⟨k.val, k.isLt⟩
  | ⟨1, _⟩ => ⟨(j 1).val, (j 1).isLt⟩
/-- Entry (0, column of j) of the bias row. -/
abbrev biasOf (j : S10000x64.Idx) : S1x64.Idx := fun a => match a with
  | ⟨0, _⟩ => ⟨0, Nat.one_pos⟩
  | ⟨1, _⟩ => ⟨(j 1).val, (j 1).isLt⟩

/-- The tile's matrix product into a zero accumulator is the plain sum over the contracted axis. -/
theorem tile_matmul_apply {φ₁ φ₂ : FTy} (a : FVec Ideal S10000x11 φ₁) (w : FVec Ideal S11x64 φ₂) (j : S10000x64.Idx) :
    matmul dot_S10000x11_S11x64_S10000x64_1_0_0_1_n_n none a w (constant S10000x64 .f32 0x00000000#32) j = ∑ k : Fin 11, a (rowOf j k) * w (colOf j k) := by
  show FloatOps.matmul dot_S10000x11_S11x64_S10000x64_1_0_0_1_n_n none a w (constant S10000x64 .f32 0x00000000#32) j = _
  rw [Ideal.matmul_constant_zero_apply, ← Equiv.sum_comp (ValueIdx.contrEquiv1 dot_S10000x11_S11x64_S10000x64_1_0_0_1_n_n 11 rfl rfl).symm]
  refine Finset.sum_congr rfl fun k _ => ?_
  have hk := ValueIdx.contrEquiv1_symm_val dot_S10000x11_S11x64_S10000x64_1_0_0_1_n_n 11 rfl rfl k
  have el : dot_S10000x11_S11x64_S10000x64_1_0_0_1_n_n.lhsIdx j ((ValueIdx.contrEquiv1 dot_S10000x11_S11x64_S10000x64_1_0_0_1_n_n 11 rfl rfl).symm k) = rowOf j k := funext fun a => Fin.ext (by
    match a with
    | ⟨0, _⟩ => exact lhs_tile_0 _ _
    | ⟨1, _⟩ => exact (lhs_tile_1 _ _).trans hk)
  have er : dot_S10000x11_S11x64_S10000x64_1_0_0_1_n_n.rhsIdx j ((ValueIdx.contrEquiv1 dot_S10000x11_S11x64_S10000x64_1_0_0_1_n_n 11 rfl rfl).symm k) = colOf j k := funext fun a => Fin.ext (by
    match a with
    | ⟨0, _⟩ => exact (rhs_tile_0 _ _).trans hk
    | ⟨1, _⟩ => exact rhs_tile_1 _ _)
  rw [el, er]

/-- The body's one stored value at an entry of the tile: the row of x against the column of W0, plus the bias. -/
theorem pay_apply (x0 : Vec Ideal S10000x11 .f32) (x1 : Vec Ideal S11x64 .f32) (x2 : Vec Ideal S1x64 .f32) (j : S10000x64.Idx) :
    k0_pay1 x0 x1 x2 j = (∑ k : Fin 11, x0 (rowOf j k) * x1 (colOf j k)) + x2 (biasOf j) := by
  unfold k0_pay1
  rw [ValueIdx.addf_apply, tile_matmul_apply, shapeCast_self]
  rw [broadcastTo_apply x2 broadcasts_S1x64_S10000x64 j (biasOf j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]
  rfl

/-! ## From tiles to the array -/

theorem hz : (![0, 0] : Fin 2 → Nat) = fun _ => 0 := funext fun a => by fin_cases a <;> rfl

/-- The printed index maps over the grid: the tile of x and the output tile move together along the rows; every
    other block index is 0; the output's row-tile index is the point's number. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row tile is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- What point t writes back is tile t of the whole-array projection of the arrays as the region finds them
    (the bias window holds the bias vector laid out as one row). -/
theorem flushed_eq (c : Dev nD) (t : Fin cfg0.N) (x4 : (⟨S64, .f32⟩ : BufTy).Contents (Elt Ideal))
    (hb : V c main_v4 = shapeCast S1x64 x4 shapeCasts_S64_S1x64) :
    (dat0 V c).flushed 3 t = ((cfg0.win 3).blk t).view.read (Elt Ideal) (Cert.ReferenceIdeal.Read.val_main_v7 (V c main_arg0) (V c main_arg3) x4) := by
  show (cfg0.win 3).cut (grid0.coords t) ((dat0 V c).after 3 t) = _
  rw [after0_3]
  unfold out0_3
  rw [View.canon_unit_zero hz]
  simp only [View.ld_unit_zero (S := S10000x11) hz, View.ld_unit_zero (S := S11x64) hz, View.ld_unit_zero (S := S1x64) hz]
  obtain ⟨e0, e1, e2, e3, e4, e5, e6, e7⟩ := idx_facts t
  funext j
  show k0_pay1 (iblk0 V c 0 t) (iblk0 V c 1 t) (iblk0 V c 2 t) j = Cert.ReferenceIdeal.Read.val_main_v7 (V c main_arg0) (V c main_arg3) x4 (((cfg0.win 3).blk t).view.emb j)
  refine (pay_apply (iblk0 V c 0 t) (iblk0 V c 1 t) (iblk0 V c 2 t) j).trans ?_
  rw [Cert.ReferenceIdeal.Read.val_main_v7_apply, Cert.ReferenceIdeal.Read.val_main_v4_apply, Cert.ReferenceIdeal.Read.val_main_v6_apply, Cert.ReferenceIdeal.Read.val_main_v5_apply]
  have hj0 : (j 0).val < 10000 := (j 0).isLt
  have hj1 : (j 1).val < 64 := (j 1).isLt
  refine congrArg₂ (· + ·) (Finset.sum_congr rfl fun k _ => congrArg₂ (· * ·) ?_ ?_) ?_
  · show V c main_arg0 (((cfg0.win 0).blk t).view.emb (rowOf j k)) = V c main_arg0 _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 11 + 1 * k.val = k.val; omega
  · show V c main_arg3 (((cfg0.win 1).blk t).view.emb (colOf j k)) = V c main_arg3 _
    refine congrArg (V c main_arg3) (funext fun a => Fin.ext ?_)
    match a with
    | ⟨0, _⟩ => show win0_1.index t (0 : Fin 2) * 11 + 1 * k.val = k.val; omega
    | ⟨1, _⟩ => show win0_1.index t (1 : Fin 2) * 64 + 1 * (j 1).val = win0_3.index t (1 : Fin 2) * 64 + 1 * (j 1).val; omega
  · show V c main_v4 (((cfg0.win 2).blk t).view.emb (biasOf j)) = _
    rw [hb]
    refine (shapeCast_addUnit_apply ![64] x4 shapeCasts_S64_S1x64 _).trans (congrArg x4 (funext fun a => Fin.ext ?_))
    match a with
    | ⟨0, _⟩ => show win0_2.index t (1 : Fin 2) * 64 + 1 * (j 1).val = win0_3.index t (1 : Fin 2) * 64 + 1 * (j 1).val; omega

/-- An index of the array is in point t's tile iff each coordinate is in the tile's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- The ten row tiles cover the array: row r lies in tile r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region: the whole-array projection x · W0 + b0 of the arrays as the region finds
    them, which is the reference's stage for h0. -/
theorem value (c : Dev nD) (x4 : (⟨S64, .f32⟩ : BufTy).Contents (Elt Ideal))
    (hb : V c main_v4 = shapeCast S1x64 x4 shapeCasts_S64_S1x64) :
    (dat0 V c).arrAt 3 cfg0.N = Cert.ReferenceIdeal.Read.val_main_v7 (V c main_arg0) (V c main_arg3) x4 :=
  (dat0 V c).arrAt_eq_of_cover 3 _ (fun t _ => flushed_eq V c t x4 hb) cover

end Cert.KernelIdeal.Proj0

end
-- ==== Proof.Fold1.lean ====
import proofs.«429277_j17781164605718_2_alg».proof.Proof.Gen.KernelIdeal.Frame
import proofs.«429277_j17781164605718_2_alg».proof.Proof.Gen.ReferenceIdeal.Read
import proofs.«429277_j17781164605718_2_alg».proof.Proof.TakeMask
import proofs.«429277_j17781164605718_2_alg».proof.Proof.Region0
import Idealize.ShloMosaic.Lib.StableHlo.Run

/-! # The kernel program's buffers up to the first neighbour sum

The kernel program's @main is a fold of boundary contents: host operations, then the projection region, then the
row gather and the scatter-add over the edges. Read back through that fold, each buffer the next region needs holds
a stage of the reference: the source and target indices are rows 0 and 1 of the edge list; h0 is the whole-array
projection; the gathered rows are the reference's gathered rows because every source index passes the gather's
range test under the precondition; and the scatter-add of equal rows at equal targets is the reference's
neighbour sum. The scatter-add and the gather are never opened: equal operands go in, equal results come out. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the projection -/

theorem W1_v1 (c : Dev nD) : W1 m ρ c (Proc.devRef .tc main_v1) = Cert.ReferenceIdeal.Read.val_main_v1 (m ((c.tc : Thread nD τ).loc main_arg1)) := by
  show StableHlo.after hostOps0 (W0 m ρ c) (Proc.devRef .tc main_v1) = _
  after_results
  rfl
theorem W1_v3 (c : Dev nD) : W1 m ρ c (Proc.devRef .tc main_v3) = Cert.ReferenceIdeal.Read.val_main_v3 (m ((c.tc : Thread nD τ).loc main_arg1)) := by
  show StableHlo.after hostOps0 (W0 m ρ c) (Proc.devRef .tc main_v3) = _
  after_results
  rfl
theorem W1_v4 (c : Dev nD) : W1 m ρ c (Proc.devRef .tc main_v4) = shapeCast S1x64 (m ((c.tc : Thread nD τ).loc main_arg4)) shapeCasts_S64_S1x64 := by
  show StableHlo.after hostOps0 (W0 m ρ c) (Proc.devRef .tc main_v4) = _
  after_results
  rfl
theorem W1_arg (c : Dev nD) (b : Ref sig .tc) (hb : b = main_arg0 ∨ b = main_arg3) :
    W1 m ρ c (Proc.devRef .tc b) = m ((c.tc : Thread nD τ).loc b) := by
  rcases hb with rfl | rfl
  · show StableHlo.after hostOps0 (W0 m ρ c) (Proc.devRef .tc main_arg0) = _
    after_results
  · show StableHlo.after hostOps0 (W0 m ρ c) (Proc.devRef .tc main_arg3) = _
    after_results

/-! ## After the projection -/

/-- h0, the projection's output, is the reference's stage for it. -/
theorem W2_v5 (c : Dev nD) : W2 m ρ c (Proc.devRef .tc main_v5) = Cert.ReferenceIdeal.Read.val_main_v7 (m ((c.tc : Thread nD τ).loc main_arg0)) (m ((c.tc : Thread nD τ).loc main_arg3)) (m ((c.tc : Thread nD τ).loc main_arg4)) := by
  refine (W2_arr m ρ c 3).trans ?_
  refine (Proj0.value (V1 m ρ) c (m ((c.tc : Thread nD τ).loc main_arg4)) (W1_v4 m ρ c)).trans ?_
  rw [show V1 m ρ c main_arg0 = (m ((c.tc : Thread nD τ).loc main_arg0)) from W1_arg m ρ c main_arg0 (.inl rfl),
    show V1 m ρ c main_arg3 = (m ((c.tc : Thread nD τ).loc main_arg3)) from W1_arg m ρ c main_arg3 (.inr rfl)]

theorem W2_v1 (c : Dev nD) : W2 m ρ c (Proc.devRef .tc main_v1) = Cert.ReferenceIdeal.Read.val_main_v1 (m ((c.tc : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (m ((c.tc : Thread nD τ).loc main_arg1)) :=
  (W2_of_ne m ρ c main_v3 (by decide)).trans (W1_v3 m ρ c)

end Cert.KernelIdeal.Fold

end
-- ==== Proof.Stretches.lean ====
import proofs.«429277_j17781164605718_2_alg».proof.Proof.Gen.KernelIdeal.Frame
import proofs.«429277_j17781164605718_2_alg».proof.Proof.Gen.ReferenceIdeal.Read
import proofs.«429277_j17781164605718_2_alg».proof.Proof.TakeMask
import Idealize.ShloMosaic.Lib.StableHlo.Run

/-! # The host stretches between and after the regions, over any entry contents

Each stretch of host operations is read once, over arbitrary entry contents: what it leaves in the buffer the next
region or the result needs, as the operations' term of what it found. The two row gathers leave a select under
the range test; the two scatter stretches a scatter-add into zeros. After the last region both programs apply the
same operations to h3 and the graph numbers: the per-graph sums and counts by scatter-add, the quotient by the
count clamped at 1, the two column halves, and on the second half the shifted softplus clamped below. Those
operations are never opened: with h3 and the graph numbers equal to the reference's, the results are the
reference's.

An operation inside a called function reads and writes its buffers through the identification of a buffer's
contents type with the value's type; the first lemmas say that identification is the identity, buffer by buffer,
so that it never stands between two large terms being compared. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## A buffer's contents type is the value's type -/

section Casts
variable {Val : EltTy → Type}

/-- Contents carried to a typed reference's buffer and back are unchanged. -/
theorem ofBuf_toBuf {T : BufTy} (x : TRef sig T) (v : T.Contents Val) : x.ofBuf (x.toBuf v) = v := by
  obtain ⟨r, rfl, _, _⟩ := x
  rfl

set_option maxRecDepth 65536 in
theorem ofBuf_v1 (h1 h2 h3) (v : (⟨S1600000, .i32⟩ : BufTy).Contents Val) :
    (TRef.of (T := ⟨S1600000, .i32⟩) main_v1 h1 h2 h3).ofBuf v = v := rfl
set_option maxRecDepth 65536 in
theorem ofBuf_v5 (h1 h2 h3) (v : (⟨S100000x64, .f32⟩ : BufTy).Contents Val) :
    (TRef.of (T := ⟨S100000x64, .f32⟩) main_v5 h1 h2 h3).ofBuf v = v := rfl
set_option maxRecDepth 65536 in
theorem ofBuf_v11 (h1 h2 h3) (v : (⟨S100000x64, .f32⟩ : BufTy).Contents Val) :
    (TRef.of (T := ⟨S100000x64, .f32⟩) main_v11 h1 h2 h3).ofBuf v = v := rfl
set_option maxRecDepth 65536 in
theorem toBuf_v6 (h1 h2 h3) (v : (⟨S1600000x64, .f32⟩ : BufTy).Contents Val) :
    (TRef.of (T := ⟨S1600000x64, .f32⟩) main_v6 h1 h2 h3).toBuf v = v := rfl
set_option maxRecDepth 65536 in
theorem toBuf_v12 (h1 h2 h3) (v : (⟨S1600000x64, .f32⟩ : BufTy).Contents Val) :
    (TRef.of (T := ⟨S1600000x64, .f32⟩) main_v12 h1 h2 h3).toBuf v = v := rfl
set_option maxRecDepth 65536 in
theorem ofBuf_v34 (h1 h2 h3) (v : (⟨S512x8, .f32⟩ : BufTy).Contents Val) :
    (TRef.of (T := ⟨S512x8, .f32⟩) main_v34 h1 h2 h3).ofBuf v = v := rfl
set_option maxRecDepth 65536 in
theorem toBuf_v35 (h1 h2 h3) (v : (⟨S512x8, .f32⟩ : BufTy).Contents Val) :
    (TRef.of (T := ⟨S512x8, .f32⟩) main_v35 h1 h2 h3).toBuf v = v := rfl

end Casts

/-! ## The gathers and the scatter-adds -/

set_option maxHeartbeats 8000000 in
/-- The first gather stretch leaves, for the gathered rows of h0, the select under the range test. -/
theorem take0_raw (Wv : Valuation τ sig (Elt Ideal)) : StableHlo.after hostOps1 Wv (Proc.devRef .tc main_v6) =
    (select (Take.inBounds (Take.wrapped (Wv (Proc.devRef .tc main_v1))))
      (Host.gather gather_S100000x64_S1600000x1_S1600000x64_1_0_n_n_0_1_164 (Wv (Proc.devRef .tc main_v5)) (Take.wrapped (Wv (Proc.devRef .tc main_v1))))
      (broadcastInDim S1600000x64 ![] bcast_S_S1600000x64 (constant (F := Ideal) S_ .f32 0x7FC00000#32)) : FVec Ideal S1600000x64 .f32) := by
  after_results
  simp only [ofBuf_toBuf, ofBuf_v1, ofBuf_v5, toBuf_v6]
  rfl

/-- The first scatter stretch leaves the scatter-add, into zeros, of the gathered rows at the target indices. -/
theorem scat0_raw (Wv : Valuation τ sig (Elt Ideal)) : StableHlo.after hostOps1_1 Wv (Proc.devRef .tc main_v9) =
    (Host.scatterAdd (F := Ideal) scatter_S100000x64_S1600000x1_S1600000x64_1_0_0_1 (broadcastInDim S100000x64 ![] bcast_S_S100000x64 (constant (F := Ideal) S_ .f32 0x00000000#32))
      (broadcastInDim S1600000x1 ![0] bcast_S1600000_S1600000x1_0 (Wv (Proc.devRef .tc main_v3))) (Wv (Proc.devRef .tc main_v6)) : FVec Ideal S100000x64 .f32) := by
  after_results <;> rfl

set_option maxHeartbeats 8000000 in
/-- The second gather stretch leaves, for the gathered rows of h1, the select under the range test. -/
theorem take1_raw (Wv : Valuation τ sig (Elt Ideal)) : StableHlo.after hostOps2 Wv (Proc.devRef .tc main_v12) =
    (select (Take.inBounds (Take.wrapped (Wv (Proc.devRef .tc main_v1))))
      (Host.gather gather_S100000x64_S1600000x1_S1600000x64_1_0_n_n_0_1_164 (Wv (Proc.devRef .tc main_v11)) (Take.wrapped (Wv (Proc.devRef .tc main_v1))))
      (broadcastInDim S1600000x64 ![] bcast_S_S1600000x64 (constant (F := Ideal) S_ .f32 0x7FC00000#32)) : FVec Ideal S1600000x64 .f32) := by
  after_results
  simp only [ofBuf_toBuf, ofBuf_v1, ofBuf_v11, toBuf_v12]
  rfl

/-- The second scatter stretch leaves the scatter-add, into zeros, of those rows at the target indices. -/
theorem scat1_raw (Wv : Valuation τ sig (Elt Ideal)) : StableHlo.after hostOps2_1 Wv (Proc.devRef .tc main_v15) =
    (Host.scatterAdd (F := Ideal) scatter_S100000x64_S1600000x1_S1600000x64_1_0_0_1 (broadcastInDim S100000x64 ![] bcast_S_S100000x64 (constant (F := Ideal) S_ .f32 0x00000000#32))
      (broadcastInDim S1600000x1 ![0] bcast_S1600000_S1600000x1_0 (Wv (Proc.devRef .tc main_v3))) (Wv (Proc.devRef .tc main_v12)) : FVec Ideal S100000x64 .f32) := by
  after_results <;> rfl

/-! ## After the last region -/

set_option maxHeartbeats 16000000 in
/-- The first result: the pooled means' first eight columns, the reference's when h3 and the graph numbers are. -/
theorem tail_loc (Wv : Valuation τ sig (Elt Ideal))
    (x0 : (⟨S100000x11, .f32⟩ : BufTy).Contents (Elt Ideal)) (x1 : (⟨S2x1600000, .i32⟩ : BufTy).Contents (Elt Ideal)) (x2 : (⟨S100000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x16, .f32⟩ : BufTy).Contents (Elt Ideal)) (x12 : (⟨S16, .f32⟩ : BufTy).Contents (Elt Ideal))
    (h18 : Wv (Proc.devRef .tc main_v18) = Cert.ReferenceIdeal.Read.val_main_v46 x0 x1 x3 x4 x5 x6 x7 x8 x9 x10 x11 x12)
    (h2 : Wv (Proc.devRef .tc main_arg2) = x2) :
    StableHlo.after hostOps3_2 (StableHlo.after hostOps3_1 (StableHlo.after hostOps3 Wv)) (Proc.devRef .tc main_v31)
      = Cert.ReferenceIdeal.Read.val_main_v59 x0 x1 x2 x3 x4 x5 x6 x7 x8 x9 x10 x11 x12 := by
  after_results
  rw [h18, h2]
  rfl

set_option maxHeartbeats 16000000 in
/-- The second result: the clamped shifted softplus of the last eight columns, likewise. -/
theorem tail_scale (Wv : Valuation τ sig (Elt Ideal))
    (x0 : (⟨S100000x11, .f32⟩ : BufTy).Contents (Elt Ideal)) (x1 : (⟨S2x1600000, .i32⟩ : BufTy).Contents (Elt Ideal)) (x2 : (⟨S100000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x16, .f32⟩ : BufTy).Contents (Elt Ideal)) (x12 : (⟨S16, .f32⟩ : BufTy).Contents (Elt Ideal))
    (h18 : Wv (Proc.devRef .tc main_v18) = Cert.ReferenceIdeal.Read.val_main_v46 x0 x1 x3 x4 x5 x6 x7 x8 x9 x10 x11 x12)
    (h2 : Wv (Proc.devRef .tc main_arg2) = x2) :
    StableHlo.after hostOps3_2 (StableHlo.after hostOps3_1 (StableHlo.after hostOps3 Wv)) (Proc.devRef .tc main_v37)
      = Cert.ReferenceIdeal.Read.val_main_v65 x0 x1 x2 x3 x4 x5 x6 x7 x8 x9 x10 x11 x12 := by
  after_results
  simp only [ofBuf_toBuf, ofBuf_v34, toBuf_v35]
  rw [h18, h2]
  rfl

end Cert.KernelIdeal.Fold

end
-- ==== Proof.Fold2.lean ====
import proofs.«429277_j17781164605718_2_alg».proof.Proof.Fold1
import proofs.«429277_j17781164605718_2_alg».proof.Proof.Stretches

/-! # The first row gather and neighbour sum

Between the projection and the first convolution the kernel program gathers h0's rows at the source indices and
scatter-adds them at the target indices. Under the precondition every source index is a row number, so the
gather's range test holds on every lane and the selected rows are the gathered rows: the reference's. The
scatter-add then has the reference's operands, so the neighbour sum is the reference's stage for it. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable [hPre_finite_inputs : Cert.Pre_finite_inputs.Facts]
variable (m : (ℓ : Loc nD τ sig) → Buf (Elt Ideal) ℓ) (ρ : Dev nD → PrngReg)

/-! ## Weights, biases and graph numbers, as launched

These arguments are staged by no window of the projection and written by no host operation, so at each boundary
up to the first convolution they hold what the launch memory holds. One statement per boundary, over the buffer. -/

theorem W2_args (c : Dev nD) (b : Ref sig .tc)
    (hb : b = main_arg2 ∨ b = main_arg5 ∨ b = main_arg6 ∨ b = main_arg7 ∨ b = main_arg8 ∨ b = main_arg9 ∨ b = main_arg10 ∨ b = main_arg11 ∨ b = main_arg12) :
    W2 m ρ c (Proc.devRef .tc b) = m ((c.tc : Thread nD τ).loc b) := by
  rcases hb with rfl | rfl | rfl | rfl | rfl | rfl | rfl | rfl | rfl
  all_goals exact (W2_of_ne m ρ c _ (by decide)).trans (by show StableHlo.after hostOps0 (W0 m ρ c) _ = _; after_results <;> rfl)

theorem W4_args (c : Dev nD) (b : Ref sig .tc)
    (hb : b = main_arg2 ∨ b = main_arg5 ∨ b = main_arg6 ∨ b = main_arg7 ∨ b = main_arg8 ∨ b = main_arg9 ∨ b = main_arg10 ∨ b = main_arg11 ∨ b = main_arg12) :
    W4 m ρ c (Proc.devRef .tc b) = m ((c.tc : Thread nD τ).loc b) := by
  refine Eq.trans ?_ (W2_args m ρ c b hb)
  rcases hb with rfl | rfl | rfl | rfl | rfl | rfl | rfl | rfl | rfl
  all_goals (show StableHlo.after hostOps1_1 (StableHlo.after hostOps1 (W2 m ρ c)) _ = _; after_results <;> rfl)

/-! ## The fold up to the first convolution -/

theorem W3_v3 (c : Dev nD) : W3 m ρ c (Proc.devRef .tc main_v3) = Cert.ReferenceIdeal.Read.val_main_v3 (m ((c.tc : Thread nD τ).loc main_arg1)) :=
  (by show StableHlo.after hostOps1 (W2 m ρ c) (Proc.devRef .tc main_v3) = _; after_results <;> rfl : W3 m ρ c (Proc.devRef .tc main_v3) = W2 m ρ c (Proc.devRef .tc main_v3)).trans (W2_v3 m ρ c)

/-- The gathered rows of h0 are the reference's gathered rows. -/
theorem W3_v6 (hpre : Cert.Pre_KernelIdeal m) (c : Dev nD) :
    W3 m ρ c (Proc.devRef .tc main_v6) = Cert.ReferenceIdeal.Read.val_main_v14 (m ((c.tc : Thread nD τ).loc main_arg0)) (m ((c.tc : Thread nD τ).loc main_arg1)) (m ((c.tc : Thread nD τ).loc main_arg3)) (m ((c.tc : Thread nD τ).loc main_arg4)) := by
  refine (take0_raw (W2 m ρ c)).trans ?_
  rw [W2_v1 m ρ c, W2_v5 m ρ c]
  rw [Take.select_inBounds (Cert.ReferenceIdeal.Read.val_main_v1 (m ((c.tc : Thread nD τ).loc main_arg1))) (fun e => Take.src_in_range m hpre c e)]
  rfl

/-- The first neighbour sum is the reference's. -/
theorem W4_v9 (hpre : Cert.Pre_KernelIdeal m) (c : Dev nD) :
    W4 m ρ c (Proc.devRef .tc main_v9) = Cert.ReferenceIdeal.Read.val_main_v17 (m ((c.tc : Thread nD τ).loc main_arg0)) (m ((c.tc : Thread nD τ).loc main_arg1)) (m ((c.tc : Thread nD τ).loc main_arg3)) (m ((c.tc : Thread nD τ).loc main_arg4)) := by
  refine (scat0_raw (W3 m ρ c)).trans ?_
  rw [W3_v6 m ρ hpre c, W3_v3 m ρ c]
  rfl

theorem W4_v5 (c : Dev nD) : W4 m ρ c (Proc.devRef .tc main_v5) = Cert.ReferenceIdeal.Read.val_main_v7 (m ((c.tc : Thread nD τ).loc main_arg0)) (m ((c.tc : Thread nD τ).loc main_arg3)) (m ((c.tc : Thread nD τ).loc main_arg4)) :=
  (by show StableHlo.after hostOps1_1 (StableHlo.after hostOps1 (W2 m ρ c)) (Proc.devRef .tc main_v5) = _; after_results <;> rfl : W4 m ρ c (Proc.devRef .tc main_v5) = W2 m ρ c (Proc.devRef .tc main_v5)).trans (W2_v5 m ρ c)
/-- The first convolution's bias, laid out as one row. -/
theorem W4_v10 (c : Dev nD) : W4 m ρ c (Proc.devRef .tc main_v10) = shapeCast S1x64 (m ((c.tc : Thread nD τ).loc main_arg6)) shapeCasts_S64_S1x64 := by
  refine (by show StableHlo.after hostOps1_1 (StableHlo.after hostOps1 (W2 m ρ c)) (Proc.devRef .tc main_v10) = _; after_results <;> rfl :
    W4 m ρ c (Proc.devRef .tc main_v10) = shapeCast S1x64 (W2 m ρ c (Proc.devRef .tc main_arg6)) shapeCasts_S64_S1x64).trans ?_
  rw [W2_args m ρ c main_arg6 (by decide)]

end Cert.KernelIdeal.Fold

end
-- ==== Proof.Region1.lean ====
import proofs.«429277_j17781164605718_2_alg».proof.Proof.Gen.KernelIdeal.Frame
import proofs.«429277_j17781164605718_2_alg».proof.Proof.Gen.ReferenceIdeal.Read
import Idealize.ShloMosaic.Lib.Pipeline.Value
import Idealize.ShloMosaic.Lib.ValueIdx
import Idealize.ShloMosaic.PureOps.Ideal.Laws

/-! # The first graph convolution's dense part, region by rows

The second kernel computes h1 = tanh(agg · Wrel + brel + h0 · Wroot) over ten row tiles of 10000 rows, agg the
neighbour sums of h0. Row r of either product depends on row r of its left factor only, so a row tile of the
result is the same rows of the whole-array expression the reference computes. -/

set_option maxRecDepth 16384

noncomputable section

namespace Cert.KernelIdeal.Conv1

open Cert.KernelIdeal Cert.KernelIdeal.Gen
open Idealize.ShloMosaic Idealize.ShloMosaic.TcCoe Idealize.SL.Sem

/-! ## The tile's products read at an entry -/

theorem lhs_tile_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_tile_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhs_tile_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhs_tile_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (row of j, k) of a tile of a left factor. -/
abbrev rowOf (j : S10000x64.Idx) (k : Fin 64) : S10000x64.Idx := fun a => match a with
  | ⟨0, _⟩ => ⟨(j 0).val, (j 0).isLt⟩
  | ⟨1, _⟩ => ⟨k.val, k.isLt⟩
/-- Entry (k, column of j) of a weight matrix. -/
abbrev colOf (j : S10000x64.Idx) (k : Fin 64) : S64x64.Idx := fun a => match a with
  | ⟨0, _⟩ => ⟨k.val, k.isLt⟩
  | ⟨1, _⟩ => ⟨(j 1).val, (j 1).isLt⟩
/-- Entry (0, column of j) of the bias row. -/
abbrev biasOf (j : S10000x64.Idx) : S1x64.Idx := fun a => match a with
  | ⟨0, _⟩ => ⟨0, Nat.one_pos⟩
  | ⟨1, _⟩ => ⟨(j 1).val, (j 1).isLt⟩

/-- A tile's matrix product into a zero accumulator is the plain sum over the contracted axis. -/
theorem tile_matmul_apply {φ₁ φ₂ : FTy} (a : FVec Ideal S10000x64 φ₁) (w : FVec Ideal S64x64 φ₂) (j : S10000x64.Idx) :
    matmul dot_S10000x64_S64x64_S10000x64_1_0_0_1_n_n none a w (constant S10000x64 .f32 0x00000000#32) j = ∑ k : Fin 64, a (rowOf j k) * w (colOf j k) := by
  show FloatOps.matmul dot_S10000x64_S64x64_S10000x64_1_0_0_1_n_n none a w (constant S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowOf j k := funext fun a => Fin.ext (by
    match a with
    | ⟨0, _⟩ => exact lhs_tile_0 _ _
    | ⟨1, _⟩ => exact (lhs_tile_1 _ _).trans hk)
  have er : dot_S10000x64_S64x64_S10000x64_1_0_0_1_n_n.rhsIdx j ((ValueIdx.contrEquiv1 dot_S10000x64_S64x64_S10000x64_1_0_0_1_n_n 64 rfl rfl).symm k) = colOf j k := funext fun a => Fin.ext (by
    match a with
    | ⟨0, _⟩ => exact (rhs_tile_0 _ _).trans hk
    | ⟨1, _⟩ => exact rhs_tile_1 _ _)
  rw [el, er]

/-- The hyperbolic tangent of a vector, read at an entry. -/
theorem tanh_apply {s : Shape} {φ : FTy} (a : FVec Ideal s φ) (i : s.Idx) : tanh a i = Ideal.tanh (a i) := rfl

/-- The body's one stored value at an entry of the tile: the hyperbolic tangent of the row of the neighbour sums
    against the column of the first weights, plus the bias, plus the row of h0 against the column of the second
    weights. Narrowing a factor to the shorter format changes nothing over the extended reals. -/
theorem pay_apply (x0 x1 : Vec Ideal S10000x64 .f32) (x2 x3 : Vec Ideal S64x64 .f32) (x4 : Vec Ideal S1x64 .f32) (j : S10000x64.Idx) :
    k1_pay1 x0 x1 x2 x3 x4 j = Ideal.tanh (((∑ k : Fin 64, x0 (rowOf j k) * x2 (colOf j k)) + x4 (biasOf j)) + ∑ k : Fin 64, x1 (rowOf j k) * x3 (colOf j k)) := by
  unfold k1_pay1
  rw [tanh_apply, ValueIdx.addf_apply, ValueIdx.addf_apply, tile_matmul_apply, tile_matmul_apply, shapeCast_self, shapeCast_self, shapeCast_self]
  rw [broadcastTo_apply x4 broadcasts_S1x64_S10000x64 j (biasOf j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]
  rfl

/-- The whole-array expression both sides compute, over arbitrary arrays: entry i is the hyperbolic tangent of
    the row of A against the column of Wr, plus the bias row's entry, plus the row of H against the column of Wo. -/
def denseOf (A H : (⟨S100000x64, .f32⟩ : BufTy).Contents (Elt Ideal)) (Wr Wo : (⟨S64x64, .f32⟩ : BufTy).Contents (Elt Ideal)) (B : (⟨S1x64, .f32⟩ : BufTy).Contents (Elt Ideal)) : (⟨S100000x64, .f32⟩ : BufTy).Contents (Elt Ideal) :=
  fun i => Ideal.tanh (((∑ k : Fin 64, A (Cert.ReferenceIdeal.Read.lidx_main_v18 i k) * Wr (Cert.ReferenceIdeal.Read.ridx_main_v18 i k)) + B (Cert.ReferenceIdeal.Read.idx_main_v20 i)) + ∑ k : Fin 64, H (Cert.ReferenceIdeal.Read.lidx_main_v22 i k) * Wo (Cert.ReferenceIdeal.Read.ridx_main_v22 i k))

theorem denseOf_apply (A H : (⟨S100000x64, .f32⟩ : BufTy).Contents (Elt Ideal)) (Wr Wo : (⟨S64x64, .f32⟩ : BufTy).Contents (Elt Ideal)) (B : (⟨S1x64, .f32⟩ : BufTy).Contents (Elt Ideal)) (i : S100000x64.Idx) :
    denseOf A H Wr Wo B i = Ideal.tanh (((∑ k : Fin 64, A (Cert.ReferenceIdeal.Read.lidx_main_v18 i k) * Wr (Cert.ReferenceIdeal.Read.ridx_main_v18 i k)) + B (Cert.ReferenceIdeal.Read.idx_main_v20 i)) + ∑ k : Fin 64, H (Cert.ReferenceIdeal.Read.lidx_main_v22 i k) * Wo (Cert.ReferenceIdeal.Read.ridx_main_v22 i k)) := rfl

/-- The reference's stage for h1 is that expression of its stages for the neighbour sums and h0, the weights, and
    the bias vector laid out as one row. -/
theorem ref_eq (x0 : (⟨S100000x11, .f32⟩ : BufTy).Contents (Elt Ideal)) (x1 : (⟨S2x1600000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    Cert.ReferenceIdeal.Read.val_main_v24 x0 x1 x3 x4 x5 x6 x7 = denseOf (Cert.ReferenceIdeal.Read.val_main_v17 x0 x1 x3 x4) (Cert.ReferenceIdeal.Read.val_main_v7 x0 x3 x4) x5 x7 (shapeCast S1x64 x6 shapeCasts_S64_S1x64) := by
  funext i
  rw [denseOf_apply, Cert.ReferenceIdeal.Read.val_main_v24_apply, Cert.ReferenceIdeal.Read.val_main_v23_apply, Cert.ReferenceIdeal.Read.val_main_v21_apply, Cert.ReferenceIdeal.Read.val_main_v18_apply, Cert.ReferenceIdeal.Read.val_main_v20_apply, Cert.ReferenceIdeal.Read.val_main_v19_apply, Cert.ReferenceIdeal.Read.val_main_v22_apply]
  rw [Ideal.hostUnary_tanh_def, Ideal.addf_def, Ideal.addf_def]
  rw [shapeCast_addUnit_apply ![64] x6 shapeCasts_S64_S1x64 (Cert.ReferenceIdeal.Read.idx_main_v20 i)]
  refine congrArg Ideal.tanh ?_
  refine congrArg₂ (· + ·) ?_ rfl
  refine congrArg₂ (· + ·) rfl ?_
  refine congrArg x6 (funext fun a => Fin.ext ?_)
  match a with
  | ⟨0, _⟩ => rfl

/-! ## From tiles to the array -/

theorem hz : (![0, 0] : Fin 2 → Nat) = fun _ => 0 := funext fun a => by fin_cases a <;> rfl

/-- The printed index maps over the grid: the tiles of the two left factors and the output tile move together
    along the rows; every other block index is 0; the output's row-tile index is the point's number. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row tile is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

variable (V : (c : Dev nD) → (b : Ref sig .tc) → Buf (Elt Ideal) ((c : Thread nD τ).loc b))

/-- What point t writes back is tile t of that expression of the arrays the region finds, whatever they are.
    Entry (r, q) of the tile is the hyperbolic tangent of the sum over k of A(r, k) · Wr(k, q), plus B(0, q), plus
    the sum over k of H(r, k) · Wo(k, q), with r counted from the tile's first row. -/
theorem flushed_of (c : Dev nD) (t : Fin cfg1.N) (A H : (⟨S100000x64, .f32⟩ : BufTy).Contents (Elt Ideal)) (Wr Wo : (⟨S64x64, .f32⟩ : BufTy).Contents (Elt Ideal)) (B : (⟨S1x64, .f32⟩ : BufTy).Contents (Elt Ideal))
    (hA : V c main_v9 = A) (hH : V c main_v5 = H) (hWr : V c main_arg5 = Wr) (hB : V c main_v10 = B) (hWo : V c main_arg7 = Wo) :
    (dat1 V c).flushed 5 t = ((cfg1.win 5).blk t).view.read (Elt Ideal) (denseOf A H Wr Wo B) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9, e10, e11⟩ := idx_facts t
  have hp := pay_apply (iblk1 V c 0 t) (iblk1 V c 1 t) (iblk1 V c 2 t) (iblk1 V c 4 t) (iblk1 V c 3 t)
  generalize k1_pay1 (iblk1 V c 0 t) (iblk1 V c 1 t) (iblk1 V c 2 t) (iblk1 V c 4 t) (iblk1 V c 3 t) = P at hp ⊢
  generalize hG : denseOf A H Wr Wo B = G
  funext j
  show P j = G (((cfg1.win 5).blk t).view.emb j)
  rw [hp j, ← hG, denseOf_apply]
  have hj0 : (j 0).val < 10000 := (j 0).isLt
  have hj1 : (j 1).val < 64 := (j 1).isLt
  refine congrArg Ideal.tanh ?_
  refine congrArg₂ (· + ·) ?_ (Finset.sum_congr rfl fun k _ => congrArg₂ (· * ·) ?_ ?_)
  refine congrArg₂ (· + ·) (Finset.sum_congr rfl fun k _ => congrArg₂ (· * ·) ?_ ?_) ?_
  · show V c main_v9 (((cfg1.win 0).blk t).view.emb (rowOf j k)) = _
    rw [hA]
    refine congrArg A (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · show V c main_arg5 (((cfg1.win 2).blk t).view.emb (colOf j k)) = _
    rw [hWr]
    refine congrArg Wr (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_v10 (((cfg1.win 3).blk t).view.emb (biasOf j)) = _
    rw [hB]
    refine congrArg B (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega
  · show V c main_v5 (((cfg1.win 1).blk t).view.emb (rowOf j k)) = _
    rw [hH]
    refine congrArg H (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · show V c main_arg7 (((cfg1.win 4).blk t).view.emb (colOf j k)) = _
    rw [hWo]
    refine congrArg Wo (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega

/-- An index of the array is in point t's tile iff each coordinate is in the tile's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v11).slice (win1_5.rect t)).set ↔ _
  rw [View.set_slice_whole, Rect.mem_set_unit]
  exact Iff.rfl

/-- The ten row tiles cover the array: row r lies in tile r / 10000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the region is the reference's stage for h1, given that the region finds the neighbour
    sums and h0 at the reference's stages for them, and the weights and the bias row at the arguments. -/
theorem value (c : Dev nD)
    (x0 : (⟨S100000x11, .f32⟩ : BufTy).Contents (Elt Ideal)) (x1 : (⟨S2x1600000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (hagg : V c main_v9 = Cert.ReferenceIdeal.Read.val_main_v17 x0 x1 x3 x4)
    (hh : V c main_v5 = Cert.ReferenceIdeal.Read.val_main_v7 x0 x3 x4)
    (hwrel : V c main_arg5 = x5)
    (hb : V c main_v10 = shapeCast S1x64 x6 shapeCasts_S64_S1x64)
    (hwroot : V c main_arg7 = x7) :
    (dat1 V c).arrAt 5 cfg1.N = Cert.ReferenceIdeal.Read.val_main_v24 x0 x1 x3 x4 x5 x6 x7 := by
  rw [ref_eq]
  exact (dat1 V c).arrAt_eq_of_cover 5 _ (fun t _ => flushed_of V c t _ _ _ _ _ hagg hh hwrel hb hwroot) cover

end Cert.KernelIdeal.Conv1

end
-- ==== Proof.Region2.lean ====
import proofs.«429277_j17781164605718_2_alg».proof.Proof.Gen.KernelIdeal.Frame
import proofs.«429277_j17781164605718_2_alg».proof.Proof.Gen.ReferenceIdeal.Read
import Idealize.ShloMosaic.Lib.Pipeline.Value
import Idealize.ShloMosaic.Lib.ValueIdx
import Idealize.ShloMosaic.PureOps.Ideal.Laws

/-! # The second graph convolution's dense part and the output projection, region by rows

The third kernel computes h3 = tanh(tanh(agg · Wrel + brel + h1 · Wroot) · W3 + b3) over ten row tiles of 10000
rows, agg the neighbour sums of h1. Every product is row-local in its left factor, so a row tile of the result is
the same rows of the whole-array expression the reference computes in two steps. -/

set_option maxRecDepth 16384

noncomputable section

namespace Cert.KernelIdeal.Conv2

open Cert.KernelIdeal Cert.KernelIdeal.Gen
open Idealize.ShloMosaic Idealize.ShloMosaic.TcCoe Idealize.SL.Sem

/-! ## The tile's products read at an entry

Two shapes of product occur: a 10000 by 64 tile against a 64 by 64 matrix (twice, in the convolution), and the
10000 by 64 tile of the hidden layer against the 64 by 16 projection. -/

theorem lhsA_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsA_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem rhsA_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem rhsA_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem lhsB_0 (j : S10000x16.Idx) (q : dot_S10000x64_S64x16_S10000x16_1_0_0_1_n_n.contr.Idx) :
    (dot_S10000x64_S64x16_S10000x16_1_0_0_1_n_n.lhsIdx j q 0).val = (j 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhsB_1 (j : S10000x16.Idx) (q : dot_S10000x64_S64x16_S10000x16_1_0_0_1_n_n.contr.Idx) :
    (dot_S10000x64_S64x16_S10000x16_1_0_0_1_n_n.lhsIdx j q 1).val = (q ⟨0, by decide⟩).val :=
  dot_S10000x64_S64x16_S10000x16_1_0_0_1_n_n.lhsIdx_val_of_single rfl j q
theorem rhsB_0 (j : S10000x16.Idx) (q : dot_S10000x64_S64x16_S10000x16_1_0_0_1_n_n.contr.Idx) :
    (dot_S10000x64_S64x16_S10000x16_1_0_0_1_n_n.rhsIdx j q 0).val = (q ⟨0, by decide⟩).val :=
  dot_S10000x64_S64x16_S10000x16_1_0_0_1_n_n.rhsIdx_val_of_single rfl j q
theorem rhsB_1 (j : S10000x16.Idx) (q : dot_S10000x64_S64x16_S10000x16_1_0_0_1_n_n.contr.Idx) :
    (dot_S10000x64_S64x16_S10000x16_1_0_0_1_n_n.rhsIdx j q 1).val = (j 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- Entry (row of j, k) of a 10000 by 64 tile, for j an entry of a 10000 by 64 tile. -/
abbrev rowA (j : S10000x64.Idx) (k : Fin 64) : S10000x64.Idx := fun a => match a with
  | ⟨0, _⟩ => ⟨(j 0).val, (j 0).isLt⟩
  | ⟨1, _⟩ => ⟨k.val, k.isLt⟩
/-- Entry (k, column of j) of a 64 by 64 matrix. -/
abbrev colA (j : S10000x64.Idx) (k : Fin 64) : S64x64.Idx := fun a => match a with
  | ⟨0, _⟩ => ⟨k.val, k.isLt⟩
  | ⟨1, _⟩ => ⟨(j 1).val, (j 1).isLt⟩
/-- Entry (0, column of j) of the convolution's bias row. -/
abbrev biasA (j : S10000x64.Idx) : S1x64.Idx := fun a => match a with
  | ⟨0, _⟩ => ⟨0, Nat.one_pos⟩
  | ⟨1, _⟩ => ⟨(j 1).val, (j 1).isLt⟩
/-- Entry (row of j, k) of a 10000 by 64 tile, for j an entry of the 10000 by 16 output tile. -/
abbrev rowB (j : S10000x16.Idx) (k : Fin 64) : S10000x64.Idx := fun a => match a with
  | ⟨0, _⟩ => ⟨(j 0).val, (j 0).isLt⟩
  | ⟨1, _⟩ => ⟨k.val, k.isLt⟩
/-- Entry (k, column of j) of the 64 by 16 projection. -/
abbrev colB (j : S10000x16.Idx) (k : Fin 64) : S64x16.Idx := fun a => match a with
  | ⟨0, _⟩ => ⟨k.val, k.isLt⟩
  | ⟨1, _⟩ => ⟨(j 1).val, (j 1).isLt⟩
/-- Entry (0, column of j) of the projection's bias row. -/
abbrev biasB (j : S10000x16.Idx) : S1x16.Idx := fun a => match a with
  | ⟨0, _⟩ => ⟨0, Nat.one_pos⟩
  | ⟨1, _⟩ => ⟨(j 1).val, (j 1).isLt⟩

/-- A tile's product with a 64 by 64 matrix into a zero accumulator is the plain sum over the contracted axis. -/
theorem mmA_apply {φ₁ φ₂ : FTy} (a : FVec Ideal S10000x64 φ₁) (w : FVec Ideal S64x64 φ₂) (j : S10000x64.Idx) :
    matmul dot_S10000x64_S64x64_S10000x64_1_0_0_1_n_n none a w (constant S10000x64 .f32 0x00000000#32) j = ∑ k : Fin 64, a (rowA j k) * w (colA j k) := by
  show FloatOps.matmul dot_S10000x64_S64x64_S10000x64_1_0_0_1_n_n none a w (constant S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowA j k := funext fun a => Fin.ext (by
    match a with
    | ⟨0, _⟩ => exact lhsA_0 _ _
    | ⟨1, _⟩ => exact (lhsA_1 _ _).trans hk)
  have er : dot_S10000x64_S64x64_S10000x64_1_0_0_1_n_n.rhsIdx j ((ValueIdx.contrEquiv1 dot_S10000x64_S64x64_S10000x64_1_0_0_1_n_n 64 rfl rfl).symm k) = colA j k := funext fun a => Fin.ext (by
    match a with
    | ⟨0, _⟩ => exact (rhsA_0 _ _).trans hk
    | ⟨1, _⟩ => exact rhsA_1 _ _)
  rw [el, er]

/-- A tile's product with the 64 by 16 projection into a zero accumulator is the plain sum over the contracted axis. -/
theorem mmB_apply {φ₁ φ₂ : FTy} (a : FVec Ideal S10000x64 φ₁) (w : FVec Ideal S64x16 φ₂) (j : S10000x16.Idx) :
    matmul dot_S10000x64_S64x16_S10000x16_1_0_0_1_n_n none a w (constant S10000x16 .f32 0x00000000#32) j = ∑ k : Fin 64, a (rowB j k) * w (colB j k) := by
  show FloatOps.matmul dot_S10000x64_S64x16_S10000x16_1_0_0_1_n_n none a w (constant S10000x16 .f32 0x00000000#32) j = _
  rw [Ideal.matmul_constant_zero_apply, ← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx j ((ValueIdx.contrEquiv1 dot_S10000x64_S64x16_S10000x16_1_0_0_1_n_n 64 rfl rfl).symm k) = rowB j k := funext fun a => Fin.ext (by
    match a with
    | ⟨0, _⟩ => exact lhsB_0 _ _
    | ⟨1, _⟩ => exact (lhsB_1 _ _).trans hk)
  have er : dot_S10000x64_S64x16_S10000x16_1_0_0_1_n_n.rhsIdx j ((ValueIdx.contrEquiv1 dot_S10000x64_S64x16_S10000x16_1_0_0_1_n_n 64 rfl rfl).symm k) = colB j k := funext fun a => Fin.ext (by
    match a with
    | ⟨0, _⟩ => exact (rhsB_0 _ _).trans hk
    | ⟨1, _⟩ => exact rhsB_1 _ _)
  rw [el, er]

/-- The tile's tanh at an entry is the extended reals' tanh of the entry. -/
theorem tanh_apply {s : Shape} {φ : FTy} (x : FVec Ideal s φ) (i : s.Idx) : tanh x i = Ideal.tanh (x i) := rfl

/-- The hidden tile: the body's inner value, tanh of the two products and the bias row, as one term of the tiles
    it is computed from. -/
def hidden (v0 v3 : Vec Ideal S10000x64 .f32) (v6 v8 : Vec Ideal S64x64 .f32) (v12 : Vec Ideal S1x64 .f32) : FVec Ideal S10000x64 .f32 :=
  tanh (addf (addf (matmul dot_S10000x64_S64x64_S10000x64_1_0_0_1_n_n none (truncf .bf16 (shapeCast S10000x64 v0 shapeCasts_S10000x64_S10000x64) bitsLt_bf16_f32) (truncf .bf16 v6 bitsLt_bf16_f32) (constant S10000x64 .f32 0x00000000#32))
      (broadcastTo S10000x64 (shapeCast S1x64 v12 shapeCasts_S1x64_S1x64) broadcasts_S1x64_S10000x64))
    (matmul dot_S10000x64_S64x64_S10000x64_1_0_0_1_n_n none (truncf .bf16 (shapeCast S10000x64 v3 shapeCasts_S10000x64_S10000x64) bitsLt_bf16_f32) (truncf .bf16 v8 bitsLt_bf16_f32) (constant S10000x64 .f32 0x00000000#32)))

/-- The hidden tile at an entry: tanh of the row of the neighbour sums against the column of Wrel, plus the bias,
    plus the row of h1 against the column of Wroot. -/
theorem hidden_apply (v0 v3 : Vec Ideal S10000x64 .f32) (v6 v8 : Vec Ideal S64x64 .f32) (v12 : Vec Ideal S1x64 .f32) (j : S10000x64.Idx) :
    hidden v0 v3 v6 v8 v12 j = Ideal.tanh (((∑ k : Fin 64, v0 (rowA j k) * v6 (colA j k)) + v12 (biasA j)) + ∑ k : Fin 64, v3 (rowA j k) * v8 (colA j k)) := by
  unfold hidden
  rw [tanh_apply, ValueIdx.addf_apply, ValueIdx.addf_apply, mmA_apply, mmA_apply, shapeCast_self, shapeCast_self, shapeCast_self]
  rw [broadcastTo_apply v12 broadcasts_S1x64_S10000x64 j (biasA j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]
  rfl

/-- The body's one stored value at an entry of the output tile: tanh of the row of the hidden tile against the
    column of W3, plus the bias. -/
theorem pay_apply (v0 v3 : Vec Ideal S10000x64 .f32) (v6 v8 : Vec Ideal S64x64 .f32) (v12 : Vec Ideal S1x64 .f32) (v19 : Vec Ideal S64x16 .f32) (v22 : Vec Ideal S1x16 .f32) (j : S10000x16.Idx) :
    k2_pay1 v0 v3 v6 v8 v12 v19 v22 j = Ideal.tanh ((∑ k : Fin 64, hidden v0 v3 v6 v8 v12 (rowB j k) * v19 (colB j k)) + v22 (biasB j)) := by
  unfold k2_pay1
  show tanh (addf (matmul dot_S10000x64_S64x16_S10000x16_1_0_0_1_n_n none (truncf .bf16 (hidden v0 v3 v6 v8 v12) bitsLt_bf16_f32) (truncf .bf16 v19 bitsLt_bf16_f32) (constant S10000x16 .f32 0x00000000#32))
    (broadcastTo S10000x16 (shapeCast S1x16 v22 shapeCasts_S1x16_S1x16) broadcasts_S1x16_S10000x16)) j = _
  rw [tanh_apply, ValueIdx.addf_apply, mmB_apply, shapeCast_self]
  rw [broadcastTo_apply v22 broadcasts_S1x16_S10000x16 j (biasB j) (fun a => match a with
    | ⟨0, _⟩ => by show 0 = if (1 : Nat) = 1 then 0 else _; rw [if_pos rfl]
    | ⟨1, _⟩ => by show (j 1).val = if (16 : Nat) = 1 then 0 else (j 1).val; rw [if_neg (by decide)])]
  rfl

/-! ## From tiles to the array -/

theorem hz : (![0, 0] : Fin 2 → Nat) = fun _ => 0 := funext fun a => by fin_cases a <;> rfl

/-- The printed index maps over the grid: the tiles of the neighbour sums and of h1 move with the output tile
    along the rows; every other block index is 0; the output's row-tile index is at most 9. -/
theorem idx_facts : ∀ t : Fin cfg2.N, win2_0.index t (0 : Fin 2) = win2_7.index t (0 : Fin 2)
    ∧ win2_0.index t (1 : Fin 2) = 0
    ∧ win2_1.index t (0 : Fin 2) = win2_7.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 9 :=
  (by decide +kernel : ∀ t : Fin grid2.N, _)

/-- Every row tile is some point's. -/
theorem idx_onto : ∀ q0 : Fin 10, ∃ t : Fin cfg2.N, win2_7.index t = ![q0.val, 0] :=
  (by decide +kernel : ∀ q0 : Fin 10, ∃ t : Fin grid2.N, win2_7.index t = ![q0.val, 0])

variable (V : (c : Dev nD) → (b : Ref sig .tc) → Buf (Elt Ideal) ((c : Thread nD τ).loc b))

/-- The hidden tile of point t at entry i is the reference's hidden layer at the same column and at row i of
    tile t of the array: the products are row-local, the neighbour sums and h1 are read at their stages as atoms. -/
theorem hidden_eq (c : Dev nD) (t : Fin cfg2.N)
    (x0 : (⟨S100000x11, .f32⟩ : BufTy).Contents (Elt Ideal)) (x1 : (⟨S2x1600000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal))
    (hagg : V c main_v15 = Cert.ReferenceIdeal.Read.val_main_v34 x0 x1 x3 x4 x5 x6 x7)
    (hh : V c main_v11 = Cert.ReferenceIdeal.Read.val_main_v24 x0 x1 x3 x4 x5 x6 x7)
    (hwrel : V c main_arg8 = x8)
    (hb : V c main_v16 = shapeCast S1x64 x9 shapeCasts_S64_S1x64)
    (hwroot : V c main_arg10 = x10)
    (i : S10000x64.Idx) (i' : S100000x64.Idx)
    (h0 : (i' 0).val = win2_7.index t (0 : Fin 2) * 10000 + (i 0).val) (h1 : (i' 1).val = (i 1).val) :
    hidden (iblk2 V c 0 t) (iblk2 V c 1 t) (iblk2 V c 2 t) (iblk2 V c 4 t) (iblk2 V c 3 t) i = Cert.ReferenceIdeal.Read.val_main_v41 x0 x1 x3 x4 x5 x6 x7 x8 x9 x10 i' := by
  obtain ⟨e00, e01, e10, e11, e20, e21, e30, e31, e40, e41, e50, e51, e60, e61, e71, e70⟩ := idx_facts t
  refine (hidden_apply (iblk2 V c 0 t) (iblk2 V c 1 t) (iblk2 V c 2 t) (iblk2 V c 4 t) (iblk2 V c 3 t) i).trans ?_
  rw [Cert.ReferenceIdeal.Read.val_main_v41_apply, Cert.ReferenceIdeal.Read.val_main_v40_apply, Cert.ReferenceIdeal.Read.val_main_v38_apply, Cert.ReferenceIdeal.Read.val_main_v35_apply, Cert.ReferenceIdeal.Read.val_main_v39_apply, Cert.ReferenceIdeal.Read.val_main_v37_apply, Cert.ReferenceIdeal.Read.val_main_v36_apply, Ideal.hostUnary_tanh_def]
  refine congrArg Ideal.tanh (congrArg₂ (· + ·) (congrArg₂ (· + ·) (Finset.sum_congr rfl fun l _ => congrArg₂ (· * ·) ?_ ?_) ?_) (Finset.sum_congr rfl fun l _ => congrArg₂ (· * ·) ?_ ?_))
  · show V c main_v15 (((cfg2.win 0).blk t).view.emb (rowA i l)) = _
    rw [hagg]
    refine congrArg (Cert.ReferenceIdeal.Read.val_main_v34 x0 x1 x3 x4 x5 x6 x7) (funext fun a => Fin.ext ?_)
    match a with
    | ⟨0, _⟩ => show win2_0.index t (0 : Fin 2) * 10000 + 1 * (i 0).val = (i' 0).val; omega
    | ⟨1, _⟩ => show win2_0.index t (1 : Fin 2) * 64 + 1 * l.val = l.val; omega
  · show V c main_arg8 (((cfg2.win 2).blk t).view.emb (colA i l)) = _
    rw [hwrel]
    refine congrArg x8 (funext fun a => Fin.ext ?_)
    match a with
    | ⟨0, _⟩ => show win2_2.index t (0 : Fin 2) * 64 + 1 * l.val = l.val; omega
    | ⟨1, _⟩ => show win2_2.index t (1 : Fin 2) * 64 + 1 * (i 1).val = (i' 1).val; omega
  · show V c main_v16 (((cfg2.win 3).blk t).view.emb (biasA i)) = _
    rw [hb]
    refine (shapeCast_addUnit_apply ![64] x9 shapeCasts_S64_S1x64 _).trans (congrArg x9 (funext fun a => Fin.ext ?_))
    match a with
    | ⟨0, _⟩ => show win2_3.index t (1 : Fin 2) * 64 + 1 * (i 1).val = (i' 1).val; omega
  · show V c main_v11 (((cfg2.win 1).blk t).view.emb (rowA i l)) = _
    rw [hh]
    refine congrArg (Cert.ReferenceIdeal.Read.val_main_v24 x0 x1 x3 x4 x5 x6 x7) (funext fun a => Fin.ext ?_)
    match a with
    | ⟨0, _⟩ => show win2_1.index t (0 : Fin 2) * 10000 + 1 * (i 0).val = (i' 0).val; omega
    | ⟨1, _⟩ => show win2_1.index t (1 : Fin 2) * 64 + 1 * l.val = l.val; omega
  · show V c main_arg10 (((cfg2.win 4).blk t).view.emb (colA i l)) = _
    rw [hwroot]
    refine congrArg x10 (funext fun a => Fin.ext ?_)
    match a with
    | ⟨0, _⟩ => show win2_4.index t (0 : Fin 2) * 64 + 1 * l.val = l.val; omega
    | ⟨1, _⟩ => show win2_4.index t (1 : Fin 2) * 64 + 1 * (i 1).val = (i' 1).val; omega

/-- What point t writes back is tile t of the reference's stage for h3, given what the region finds in its
    arrays (each bias window holds its bias vector laid out as one row). -/
theorem flushed_eq (c : Dev nD) (t : Fin cfg2.N)
    (x0 : (⟨S100000x11, .f32⟩ : BufTy).Contents (Elt Ideal)) (x1 : (⟨S2x1600000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x16, .f32⟩ : BufTy).Contents (Elt Ideal)) (x12 : (⟨S16, .f32⟩ : BufTy).Contents (Elt Ideal))
    (hagg : V c main_v15 = Cert.ReferenceIdeal.Read.val_main_v34 x0 x1 x3 x4 x5 x6 x7)
    (hh : V c main_v11 = Cert.ReferenceIdeal.Read.val_main_v24 x0 x1 x3 x4 x5 x6 x7)
    (hwrel : V c main_arg8 = x8)
    (hb : V c main_v16 = shapeCast S1x64 x9 shapeCasts_S64_S1x64)
    (hwroot : V c main_arg10 = x10)
    (hw3 : V c main_arg11 = x11)
    (hb3 : V c main_v17 = shapeCast S1x16 x12 shapeCasts_S16_S1x16) :
    (dat2 V c).flushed 7 t = ((cfg2.win 7).blk t).view.read (Elt Ideal) (Cert.ReferenceIdeal.Read.val_main_v46 x0 x1 x3 x4 x5 x6 x7 x8 x9 x10 x11 x12) := by
  show (cfg2.win 7).cut (grid2.coords t) ((dat2 V c).after 7 t) = _
  rw [after2_7]
  unfold out2_7
  rw [View.canon_unit_zero hz]
  simp only [View.ld_unit_zero (S := S10000x64) hz, View.ld_unit_zero (S := S64x64) hz, View.ld_unit_zero (S := S1x64) hz, View.ld_unit_zero (S := S64x16) hz, View.ld_unit_zero (S := S1x16) hz]
  obtain ⟨e00, e01, e10, e11, e20, e21, e30, e31, e40, e41, e50, e51, e60, e61, e71, e70⟩ := idx_facts t
  funext j
  show k2_pay1 _ _ _ _ _ _ _ _ = _
  refine (pay_apply (iblk2 V c 0 t) (iblk2 V c 1 t) (iblk2 V c 2 t) (iblk2 V c 4 t) (iblk2 V c 3 t) (iblk2 V c 5 t) (iblk2 V c 6 t) ((win2 7).xinj (grid2.coords t) j)).trans ?_
  rw [View.read_apply, cast_eq]
  rw [Cert.ReferenceIdeal.Read.val_main_v46_apply, Cert.ReferenceIdeal.Read.val_main_v45_apply, Cert.ReferenceIdeal.Read.val_main_v42_apply, Cert.ReferenceIdeal.Read.val_main_v44_apply, Cert.ReferenceIdeal.Read.val_main_v43_apply, Ideal.hostUnary_tanh_def]
  have hj0 : (j 0).val < 10000 := (j 0).isLt
  have hj1 : (j 1).val < 16 := (j 1).isLt
  refine congrArg Ideal.tanh (congrArg₂ (· + ·) (Finset.sum_congr rfl fun k _ => congrArg₂ (· * ·) ?_ ?_) ?_)
  · refine hidden_eq V c t x0 x1 x3 x4 x5 x6 x7 x8 x9 x10 hagg hh hwrel hb hwroot (rowB ((win2 7).xinj (grid2.coords t) j) k) _ ?_ ?_
    · show win2_7.index t (0 : Fin 2) * 10000 + 1 * (j 0).val = win2_7.index t (0 : Fin 2) * 10000 + (j 0).val; omega
    · rfl
  · show V c main_arg11 (((cfg2.win 5).blk t).view.emb (colB ((win2 7).xinj (grid2.coords t) j) k)) = _
    rw [hw3]
    refine congrArg x11 (funext fun a => Fin.ext ?_)
    match a with
    | ⟨0, _⟩ => show win2_5.index t (0 : Fin 2) * 64 + 1 * k.val = k.val; omega
    | ⟨1, _⟩ => show win2_5.index t (1 : Fin 2) * 16 + 1 * (j 1).val = win2_7.index t (1 : Fin 2) * 16 + 1 * (j 1).val; omega
  · show V c main_v17 (((cfg2.win 6).blk t).view.emb (biasB ((win2 7).xinj (grid2.coords t) j))) = _
    rw [hb3]
    refine (shapeCast_addUnit_apply ![16] x12 shapeCasts_S16_S1x16 _).trans (congrArg x12 (funext fun a => Fin.ext ?_))
    match a with
    | ⟨0, _⟩ => show win2_6.index t (1 : Fin 2) * 16 + 1 * (j 1).val = win2_7.index t (1 : Fin 2) * 16 + 1 * (j 1).val; omega
/-- An index of the array is in point t's tile iff each coordinate is in the tile's range on its axis. -/
theorem mem_blk (t : Fin cfg2.N) (i : S100000x16.Idx) :
    i ∈ ((cfg2.win 7).blk t).view.set ↔ ∀ a : Fin 2, win2_7.index t a * S10000x16.size a ≤ (i a).val ∧ (i a).val < win2_7.index t a * S10000x16.size a + S10000x16.size a := by
  show i ∈ ((View.whole main_v18).slice (win2_7.rect t)).set ↔ _
  rw [View.set_slice_whole, Rect.mem_set_unit]
  exact Iff.rfl

/-- The ten row tiles cover the array: row r lies in tile r / 10000. -/
theorem cover (i : S100000x16.Idx) : ∃ t : Fin cfg2.N, (cfg2.win 7).flush t = true ∧ i ∈ ((cfg2.win 7).blk t).view.set := by
  have hi0 : (i 0).val < 100000 := (i 0).isLt
  have hi1 : (i 1).val < 16 := (i 1).isLt
  obtain ⟨t, ht⟩ := idx_onto ⟨(i 0).val / 10000, by omega⟩
  have q0 : win2_7.index t (0 : Fin 2) = (i 0).val / 10000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 16 ≤ (i 1).val ∧ (i 1).val < win2_7.index t (1 : Fin 2) * 16 + 16; omega

/-- The output array after the region is the reference's stage for h3, given that the region finds the neighbour
    sums and h1 at the reference's stages for them, and the weights and the two bias rows at the arguments. -/
theorem value (c : Dev nD)
    (x0 : (⟨S100000x11, .f32⟩ : BufTy).Contents (Elt Ideal)) (x1 : (⟨S2x1600000, .i32⟩ : BufTy).Contents (Elt Ideal))
    (x3 : (⟨S11x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x16, .f32⟩ : BufTy).Contents (Elt Ideal)) (x12 : (⟨S16, .f32⟩ : BufTy).Contents (Elt Ideal))
    (hagg : V c main_v15 = Cert.ReferenceIdeal.Read.val_main_v34 x0 x1 x3 x4 x5 x6 x7)
    (hh : V c main_v11 = Cert.ReferenceIdeal.Read.val_main_v24 x0 x1 x3 x4 x5 x6 x7)
    (hwrel : V c main_arg8 = x8)
    (hb : V c main_v16 = shapeCast S1x64 x9 shapeCasts_S64_S1x64)
    (hwroot : V c main_arg10 = x10)
    (hw3 : V c main_arg11 = x11)
    (hb3 : V c main_v17 = shapeCast S1x16 x12 shapeCasts_S16_S1x16) :
    (dat2 V c).arrAt 7 cfg2.N = Cert.ReferenceIdeal.Read.val_main_v46 x0 x1 x3 x4 x5 x6 x7 x8 x9 x10 x11 x12 :=
  (dat2 V c).arrAt_eq_of_cover 7 _ (fun t _ => flushed_eq V c t x0 x1 x3 x4 x5 x6 x7 x8 x9 x10 x11 x12 hagg hh hwrel hb hwroot hw3 hb3) cover

end Cert.KernelIdeal.Conv2

end
-- ==== Proof.Fold3.lean ====
import proofs.«429277_j17781164605718_2_alg».proof.Proof.Fold2
import proofs.«429277_j17781164605718_2_alg».proof.Proof.Stretches
import proofs.«429277_j17781164605718_2_alg».proof.Proof.Region1
import proofs.«429277_j17781164605718_2_alg».proof.Proof.Region2

/-! # The fold from the first convolution to the results

With the neighbour sums of h0 and h0 itself at the reference's stages, the first convolution's output h1 is the
reference's; the second gather and scatter-add give the reference's neighbour sums of h1 as the first did for h0;
the last region's output h3 is then the reference's; and the operations after it, the same in both programs, take
equal h3 and graph numbers to equal results. Weights and biases are arguments: nothing writes them, so every
region finds them as launched. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable [hPre_finite_inputs : Cert.Pre_finite_inputs.Facts]
variable (m : (ℓ : Loc nD τ sig) → Buf (Elt Ideal) ℓ) (ρ : Dev nD → PrngReg)

/-! ## Weights, biases and graph numbers, as launched, at the later boundaries

The arguments the second convolution, the projection and the pooling read are staged by no window of the first
convolution and written by no host operation. One statement per boundary, over the buffer. -/

theorem W5_args (c : Dev nD) (b : Ref sig .tc)
    (hb : b = main_arg2 ∨ b = main_arg8 ∨ b = main_arg9 ∨ b = main_arg10 ∨ b = main_arg11 ∨ b = main_arg12) :
    W5 m ρ c (Proc.devRef .tc b) = m ((c.tc : Thread nD τ).loc b) := by
  rcases hb with rfl | rfl | rfl | rfl | rfl | rfl
  all_goals exact (W5_of_ne m ρ c _ (by decide)).trans (W4_args m ρ c _ (by decide))

theorem W7_args (c : Dev nD) (b : Ref sig .tc)
    (hb : b = main_arg2 ∨ b = main_arg8 ∨ b = main_arg9 ∨ b = main_arg10 ∨ b = main_arg11 ∨ b = main_arg12) :
    W7 m ρ c (Proc.devRef .tc b) = m ((c.tc : Thread nD τ).loc b) := by
  refine Eq.trans ?_ (W5_args m ρ c b hb)
  rcases hb with rfl | rfl | rfl | rfl | rfl | rfl
  all_goals (show StableHlo.after hostOps2_1 (StableHlo.after hostOps2 (W5 m ρ c)) _ = _; after_results <;> rfl)

theorem W8_arg2 (c : Dev nD) : W8 m ρ c (Proc.devRef .tc main_arg2) = (m ((c.tc : Thread nD τ).loc main_arg2)) :=
  (W8_of_ne m ρ c main_arg2 (by decide)).trans (W7_args m ρ c main_arg2 (by decide))

/-! ## After the first convolution -/

/-- h1 is the reference's stage for it. -/
theorem W5_v11 (hpre : Cert.Pre_KernelIdeal m) (c : Dev nD) :
    W5 m ρ c (Proc.devRef .tc main_v11) = Cert.ReferenceIdeal.Read.val_main_v24 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W5_arr m ρ c 5).trans (Conv1.value (V4 m ρ) c (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (W4_v9 m ρ hpre c) (W4_v5 m ρ c) (W4_args m ρ c main_arg5 (by decide)) (W4_v10 m ρ c) (W4_args m ρ c main_arg7 (by decide)))

theorem W5_v1 (c : Dev nD) : W5 m ρ c (Proc.devRef .tc main_v1) = Cert.ReferenceIdeal.Read.val_main_v1 (m ((c.tc : Thread nD τ).loc main_arg1)) :=
  (W5_of_ne m ρ c main_v1 (by decide)).trans ((by show StableHlo.after hostOps1_1 (StableHlo.after hostOps1 (W2 m ρ c)) (Proc.devRef .tc main_v1) = _; after_results <;> rfl : W4 m ρ c (Proc.devRef .tc main_v1) = W2 m ρ c (Proc.devRef .tc main_v1)).trans (W2_v1 m ρ c))
theorem W5_v3 (c : Dev nD) : W5 m ρ c (Proc.devRef .tc main_v3) = Cert.ReferenceIdeal.Read.val_main_v3 (m ((c.tc : Thread nD τ).loc main_arg1)) :=
  (W5_of_ne m ρ c main_v3 (by decide)).trans ((by show StableHlo.after hostOps1_1 (StableHlo.after hostOps1 (W2 m ρ c)) (Proc.devRef .tc main_v3) = _; after_results <;> rfl : W4 m ρ c (Proc.devRef .tc main_v3) = W2 m ρ c (Proc.devRef .tc main_v3)).trans (W2_v3 m ρ c))

/-! ## The second row gather and neighbour sum -/

theorem W6_v3 (c : Dev nD) : W6 m ρ c (Proc.devRef .tc main_v3) = Cert.ReferenceIdeal.Read.val_main_v3 (m ((c.tc : Thread nD τ).loc main_arg1)) :=
  (by show StableHlo.after hostOps2 (W5 m ρ c) (Proc.devRef .tc main_v3) = _; after_results <;> rfl : W6 m ρ c (Proc.devRef .tc main_v3) = W5 m ρ c (Proc.devRef .tc main_v3)).trans (W5_v3 m ρ c)

/-- The gathered rows of h1 are the reference's gathered rows. -/
theorem W6_v12 (hpre : Cert.Pre_KernelIdeal m) (c : Dev nD) :
    W6 m ρ c (Proc.devRef .tc main_v12) = Cert.ReferenceIdeal.Read.val_main_v31 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (take1_raw (W5 m ρ c)).trans ?_
  rw [W5_v1 m ρ c, W5_v11 m ρ hpre c]
  rw [Take.select_inBounds (Cert.ReferenceIdeal.Read.val_main_v1 (m ((c.tc : Thread nD τ).loc main_arg1))) (fun e => Take.src_in_range m hpre c e)]
  rfl

/-- The second neighbour sum is the reference's. -/
theorem W7_v15 (hpre : Cert.Pre_KernelIdeal m) (c : Dev nD) :
    W7 m ρ c (Proc.devRef .tc main_v15) = Cert.ReferenceIdeal.Read.val_main_v34 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (scat1_raw (W6 m ρ c)).trans ?_
  rw [W6_v12 m ρ hpre c, W6_v3 m ρ c]
  rfl

theorem W7_v11 (hpre : Cert.Pre_KernelIdeal m) (c : Dev nD) :
    W7 m ρ c (Proc.devRef .tc main_v11) = Cert.ReferenceIdeal.Read.val_main_v24 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (by show StableHlo.after hostOps2_1 (StableHlo.after hostOps2 (W5 m ρ c)) (Proc.devRef .tc main_v11) = _; after_results <;> rfl : W7 m ρ c (Proc.devRef .tc main_v11) = W5 m ρ c (Proc.devRef .tc main_v11)).trans (W5_v11 m ρ hpre c)
/-- The second convolution's bias and the projection's bias, each laid out as one row. -/
theorem W7_v16 (c : Dev nD) : W7 m ρ c (Proc.devRef .tc main_v16) = shapeCast S1x64 (m ((c.tc : Thread nD τ).loc main_arg9)) shapeCasts_S64_S1x64 := by
  refine (by show StableHlo.after hostOps2_1 (StableHlo.after hostOps2 (W5 m ρ c)) (Proc.devRef .tc main_v16) = _; after_results <;> rfl :
    W7 m ρ c (Proc.devRef .tc main_v16) = shapeCast S1x64 (W5 m ρ c (Proc.devRef .tc main_arg9)) shapeCasts_S64_S1x64).trans ?_
  rw [W5_args m ρ c main_arg9 (by decide)]
theorem W7_v17 (c : Dev nD) : W7 m ρ c (Proc.devRef .tc main_v17) = shapeCast S1x16 (m ((c.tc : Thread nD τ).loc main_arg12)) shapeCasts_S16_S1x16 := by
  refine (by show StableHlo.after hostOps2_1 (StableHlo.after hostOps2 (W5 m ρ c)) (Proc.devRef .tc main_v17) = _; after_results <;> rfl :
    W7 m ρ c (Proc.devRef .tc main_v17) = shapeCast S1x16 (W5 m ρ c (Proc.devRef .tc main_arg12)) shapeCasts_S16_S1x16).trans ?_
  rw [W5_args m ρ c main_arg12 (by decide)]

/-! ## After the last region, and the results -/

/-- h3 is the reference's stage for it. -/
theorem W8_v18 (hpre : Cert.Pre_KernelIdeal m) (c : Dev nD) :
    W8 m ρ c (Proc.devRef .tc main_v18) = Cert.ReferenceIdeal.Read.val_main_v46 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W8_arr m ρ c 7).trans (Conv2.value (V7 m ρ) c (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    (W7_v15 m ρ hpre c) (W7_v11 m ρ hpre c) (W7_args m ρ c main_arg8 (by decide)) (W7_v16 m ρ c) (W7_args m ρ c main_arg10 (by decide)) (W7_args m ρ c main_arg11 (by decide)) (W7_v17 m ρ c))

/-- The first result buffer at the last boundary is the reference's first result. -/
theorem W11_v31 (hpre : Cert.Pre_KernelIdeal m) (c : Dev nD) :
    W11 m ρ c (Proc.devRef .tc main_v31) = Cert.ReferenceIdeal.Read.val_main_v59 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  tail_loc (W8 m ρ c) _ _ _ _ _ _ _ _ _ _ _ _ _ (W8_v18 m ρ hpre c) (W8_arg2 m ρ c)

/-- The second result buffer at the last boundary is the reference's second result. -/
theorem W11_v37 (hpre : Cert.Pre_KernelIdeal m) (c : Dev nD) :
    W11 m ρ c (Proc.devRef .tc main_v37) = Cert.ReferenceIdeal.Read.val_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  tail_scale (W8 m ρ c) _ _ _ _ _ _ _ _ _ _ _ _ _ (W8_v18 m ρ hpre c) (W8_arg2 m ρ c)

end Cert.KernelIdeal.Fold

end
-- ==== Proof.lean ====
/- The certificate: a three-layer graph network (input projection, two graph convolutions with tanh, an output
   projection with tanh) followed by a mean pool per graph and a location / scale head, as three row-tiled kernels
   with the edge gather and scatter-add between them, against the same network written as whole-array operations.

   Over the extended reals the two programs compute the same function of the arguments, stage by stage: a row tile
   of a matrix product is the same rows of the whole product, so each kernel's output array is the reference's
   stage (h0, h1, h3); the kernel program's row gather selects the gathered row wherever its range test holds,
   and the precondition (row 0 of the edge list holds node numbers in [0, 100000)) makes it hold everywhere, so the
   gathered rows and then the neighbour sums are the reference's; everything after h3 is the same operations on
   equal operands. No law of the extended reals beyond re-indexing finite sums is used, and finiteness of the float
   inputs is never opened. The frames are the generated ones; preserves has no conjunct. -/
import proofs.«429277_j17781164605718_2_alg».proof.Defs
import proofs.«429277_j17781164605718_2_alg».proof.Proof.Gen.Kernel
import proofs.«429277_j17781164605718_2_alg».proof.Proof.Gen.Kernel.Skeleton
import proofs.«429277_j17781164605718_2_alg».proof.Proof.Gen.Kernel.Launch
import proofs.«429277_j17781164605718_2_alg».proof.Proof.Gen.Kernel.Points
import proofs.«429277_j17781164605718_2_alg».proof.Proof.Gen.Kernel.Frame
import proofs.«429277_j17781164605718_2_alg».proof.Proof.Gen.KernelIdeal
import proofs.«429277_j17781164605718_2_alg».proof.Proof.Gen.KernelIdeal.Skeleton
import proofs.«429277_j17781164605718_2_alg».proof.Proof.Gen.KernelIdeal.Launch
import proofs.«429277_j17781164605718_2_alg».proof.Proof.Gen.KernelIdeal.Points
import proofs.«429277_j17781164605718_2_alg».proof.Proof.Gen.KernelIdeal.Frame
import proofs.«429277_j17781164605718_2_alg».proof.Proof.Gen.ReferenceIdeal
import proofs.«429277_j17781164605718_2_alg».proof.Proof.Gen.ReferenceIdeal.Run
import proofs.«429277_j17781164605718_2_alg».proof.Proof.Gen.ReferenceIdeal.Read
import proofs.«429277_j17781164605718_2_alg».proof.Proof.Gen.Pre_finite_inputs
import proofs.«429277_j17781164605718_2_alg».proof.Proof.KernelRun
import proofs.«429277_j17781164605718_2_alg».proof.Proof.Fold3
import Idealize.ShloMosaic.Adequacy
import Idealize.ShloMosaic.Init

noncomputable section

namespace Cert.Proof

open Idealize.ShloMosaic Idealize.SL.Sem

/-- The reference runs and leaves its arguments alone: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- A result stage of the reference at equal arguments is the same array. -/
theorem stage59_congr {x0 y0 : (⟨Cert.ReferenceIdeal.S100000x11, .f32⟩ : BufTy).Contents (Elt Ideal)} {x1 y1 : (⟨Cert.ReferenceIdeal.S2x1600000, .i32⟩ : BufTy).Contents (Elt Ideal)} {x2 y2 : (⟨Cert.ReferenceIdeal.S100000, .i32⟩ : BufTy).Contents (Elt Ideal)} {x3 y3 : (⟨Cert.ReferenceIdeal.S11x64, .f32⟩ : BufTy).Contents (Elt Ideal)} {x4 y4 : (⟨Cert.ReferenceIdeal.S64, .f32⟩ : BufTy).Contents (Elt Ideal)} {x5 y5 : (⟨Cert.ReferenceIdeal.S64x64, .f32⟩ : BufTy).Contents (Elt Ideal)} {x6 y6 : (⟨Cert.ReferenceIdeal.S64, .f32⟩ : BufTy).Contents (Elt Ideal)} {x7 y7 : (⟨Cert.ReferenceIdeal.S64x64, .f32⟩ : BufTy).Contents (Elt Ideal)} {x8 y8 : (⟨Cert.ReferenceIdeal.S64x64, .f32⟩ : BufTy).Contents (Elt Ideal)} {x9 y9 : (⟨Cert.ReferenceIdeal.S64, .f32⟩ : BufTy).Contents (Elt Ideal)} {x10 y10 : (⟨Cert.ReferenceIdeal.S64x64, .f32⟩ : BufTy).Contents (Elt Ideal)} {x11 y11 : (⟨Cert.ReferenceIdeal.S64x16, .f32⟩ : BufTy).Contents (Elt Ideal)} {x12 y12 : (⟨Cert.ReferenceIdeal.S16, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.Read.val_main_v59 (F := Ideal) x0 x1 x2 x3 x4 x5 x6 x7 x8 x9 x10 x11 x12 = Cert.ReferenceIdeal.Read.val_main_v59 (F := Ideal) y0 y1 y2 y3 y4 y5 y6 y7 y8 y9 y10 y11 y12 := by
  subst h0; subst h1; subst h2; subst h3; subst h4; subst h5; subst h6; subst h7; subst h8; subst h9; subst h10; subst h11; subst h12
  rfl
theorem stage65_congr {x0 y0 : (⟨Cert.ReferenceIdeal.S100000x11, .f32⟩ : BufTy).Contents (Elt Ideal)} {x1 y1 : (⟨Cert.ReferenceIdeal.S2x1600000, .i32⟩ : BufTy).Contents (Elt Ideal)} {x2 y2 : (⟨Cert.ReferenceIdeal.S100000, .i32⟩ : BufTy).Contents (Elt Ideal)} {x3 y3 : (⟨Cert.ReferenceIdeal.S11x64, .f32⟩ : BufTy).Contents (Elt Ideal)} {x4 y4 : (⟨Cert.ReferenceIdeal.S64, .f32⟩ : BufTy).Contents (Elt Ideal)} {x5 y5 : (⟨Cert.ReferenceIdeal.S64x64, .f32⟩ : BufTy).Contents (Elt Ideal)} {x6 y6 : (⟨Cert.ReferenceIdeal.S64, .f32⟩ : BufTy).Contents (Elt Ideal)} {x7 y7 : (⟨Cert.ReferenceIdeal.S64x64, .f32⟩ : BufTy).Contents (Elt Ideal)} {x8 y8 : (⟨Cert.ReferenceIdeal.S64x64, .f32⟩ : BufTy).Contents (Elt Ideal)} {x9 y9 : (⟨Cert.ReferenceIdeal.S64, .f32⟩ : BufTy).Contents (Elt Ideal)} {x10 y10 : (⟨Cert.ReferenceIdeal.S64x64, .f32⟩ : BufTy).Contents (Elt Ideal)} {x11 y11 : (⟨Cert.ReferenceIdeal.S64x16, .f32⟩ : BufTy).Contents (Elt Ideal)} {x12 y12 : (⟨Cert.ReferenceIdeal.S16, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.Read.val_main_v65 (F := Ideal) x0 x1 x2 x3 x4 x5 x6 x7 x8 x9 x10 x11 x12 = Cert.ReferenceIdeal.Read.val_main_v65 (F := Ideal) y0 y1 y2 y3 y4 y5 y6 y7 y8 y9 y10 y11 y12 := by
  subst h0; subst h1; subst h2; subst h3; subst h4; subst h5; subst h6; subst h7; subst h8; subst h9; subst h10; subst h11; subst h12
  rfl

/-- Both idealized programs end with the same two results: the reference's last two stages, read at the kernel
    program's launch arguments. The kernel side is its run with the result buffers named, read back through the
    fold of its boundaries; the reference side is its generated run, its arguments rewritten by their agreement. -/
theorem algebraic : Cert.algebraic_KernelIdeal_ReferenceIdeal := by
  intro m ρ m' ρ' hpre hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c).1.trans (Cert.KernelIdeal.Fold.W11_v31 m ρ hpre c),
       (h c).2.1.trans (Cert.KernelIdeal.Fold.W11_v37 m ρ hpre c),
       (h c).2.2⟩) (Cert.KernelIdeal.Results.run_results m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12⟩ := hagree c
    refine ⟨(h c).1.trans ?_, (h c).2.1.trans ?_, (h c).2.2⟩
    · exact (Cert.ReferenceIdeal.Read.val_main_v59_eq m' c).trans (stage59_congr e0 e1 e2 e3 e4 e5 e6 e7 e8 e9 e10 e11 e12)
    · exact (Cert.ReferenceIdeal.Read.val_main_v65_eq m' c).trans (stage65_congr e0 e1 e2 e3 e4 e5 e6 e7 e8 e9 e10 e11 e12)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
